-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x1600000 32) (main_arg2 : FVec F S1600000 .f32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S2000x128 : Shape := ⟨2, ![2000, 128]⟩
abbrev S1650000x128 : Shape := ⟨2, ![1650000, 128]⟩
abbrev S1x128 : Shape := ⟨2, ![1, 128]⟩
abbrev S50000x1 : Shape := ⟨2, ![50000, 1]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S2000x64 : Shape := ⟨2, ![2000, 64]⟩
abbrev S64x2000 : Shape := ⟨2, ![64, 2000]⟩
abbrev S64x1 : Shape := ⟨2, ![64, 1]⟩

abbrev nBuf : Space → Nat
  | .hbm => 135
  | .vmem => 21
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S50000, .i32⟩
  | 15 => ⟨S1650000, .i32⟩
  | 16 => ⟨S1650000, .i32⟩
  | 17 => ⟨S_, .f32⟩
  | 18 => ⟨S50000, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S50000x128, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x128, .f32⟩
  | 62 => ⟨S1650000x1, .f32⟩
  | 63 => ⟨S1650000x128, .f32⟩
  | 64 => ⟨S1650000x128, .f32⟩
  | 65 => ⟨S_, .f32⟩
  | 66 => ⟨S50000x128, .f32⟩
  | 67 => ⟨S1650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S1650000, .i32⟩
  | 78 => ⟨S1650000, .i1⟩
  | 79 => ⟨S_, .i32⟩
  | 80 => ⟨S1650000, .i32⟩
  | 81 => ⟨S1650000, .i32⟩
  | 82 => ⟨S1650000, .i32⟩
  | 83 => ⟨S1650000x1, .i32⟩
  | 84 => ⟨S1650000x128, .f32⟩
  | 85 => ⟨S1650000x1, .f32⟩
  | 86 => ⟨S1650000x128, .f32⟩
  | 87 => ⟨S1650000x128, .f32⟩
  | 88 => ⟨S_, .f32⟩
  | 89 => ⟨S50000x128, .f32⟩
  | 90 => ⟨S1650000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000x128, .f32⟩
  | 108 => ⟨S1650000x1, .f32⟩
  | 109 => ⟨S1650000x128, .f32⟩
  | 110 => ⟨S1650000x128, .f32⟩
  | 111 => ⟨S_, .f32⟩
  | 112 => ⟨S50000x128, .f32⟩
  | 113 => ⟨S1650000x1, .i32⟩
  | 114 => ⟨S50000x128, .f32⟩
  | 115 => ⟨S1x128, .f32⟩
  | 116 => ⟨S50000x128, .f32⟩
  | 117 => ⟨S50000x128, .f32⟩
  | 118 => ⟨S50000x1, .i32⟩
  | 119 => ⟨S64, .i32⟩
  | 120 => ⟨S1x64, .i32⟩
  | 121 => ⟨S50000x64, .i32⟩
  | 122 => ⟨S50000x64, .i32⟩
  | 123 => ⟨S50000x64, .i1⟩
  | 124 => ⟨S50000x64, .bf16⟩
  | 125 => ⟨S64x128, .f32⟩
  | 126 => ⟨S50000x64, .f32⟩
  | 127 => ⟨S_, .f32⟩
  | _ => ⟨S50000x128, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x128, .f32⟩
  | 6 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x64, .bf16⟩
  | .local _ .vmem, ⟨16, _⟩ => ⟨S2000x64, .bf16⟩
  | .local _ .vmem, ⟨17, _⟩ => ⟨S2000x128, .f32⟩
  | .local _ .vmem, ⟨18, _⟩ => ⟨S2000x128, .f32⟩
  | .local _ .vmem, ⟨19, _⟩ => ⟨S64x128, .f32⟩
  | .local _ .vmem, ⟨20, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_15 : Ref sig .tc := ⟨.hbm, 127, rfl⟩
abbrev main_v94 : Ref sig .tc := ⟨.hbm, 128, rfl⟩
abbrev main_cst_16 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  transposes_S2000x64_p1_0_S64x2000 : S2000x64.Transposes [1, 0] S64x2000
  reducesTo_S50000x64_S64_d0 : S50000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x128_S128x128_S2000x128_1_0_0_1_n_n_wf : DotDims.WF S2000x128 S128x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S64x2000_S2000x128_S64x128_1_0_0_1_n_n_wf : DotDims.WF S64x2000 S2000x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .bf16 = 32 ∨ (Rect.block (s := S50000x64) S2000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S64x2000_S2000x128_S64x128_1_0_0_1_n_n : DotDims S64x2000 S2000x128 S64x128 where
  lhsContracting := [1]
  rhsContracting := [0]
  lhsNonContracting := [0]
  rhsNonContracting := [1]
  lhsBatch := []
  rhsBatch := []
  wf := dot_S64x2000_S2000x128_S64x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 210
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S50000, .i32⟩
  | 15 => ⟨S1650000, .i32⟩
  | 16 => ⟨S1650000, .i32⟩
  | 17 => ⟨S_, .f32⟩
  | 18 => ⟨S50000, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S50000x128, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x128, .f32⟩
  | 62 => ⟨S1650000x1, .f32⟩
  | 63 => ⟨S1650000x128, .f32⟩
  | 64 => ⟨S1650000x128, .f32⟩
  | 65 => ⟨S_, .f32⟩
  | 66 => ⟨S50000x128, .f32⟩
  | 67 => ⟨S1650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000, .i32⟩
  | 76 => ⟨S1650000, .i32⟩
  | 77 => ⟨S1650000, .i32⟩
  | 78 => ⟨S_, .f32⟩
  | 79 => ⟨S50000, .f32⟩
  | 80 => ⟨S1650000, .f32⟩
  | 81 => ⟨S_, .f32⟩
  | 82 => ⟨S50000, .f32⟩
  | 83 => ⟨S1650000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000, .f32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000, .f32⟩
  | 112 => ⟨S1650000, .f32⟩
  | 113 => ⟨S50000x128, .f32⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000x128, .f32⟩
  | 123 => ⟨S1650000x1, .f32⟩
  | 124 => ⟨S1650000x128, .f32⟩
  | 125 => ⟨S1650000x128, .f32⟩
  | 126 => ⟨S_, .f32⟩
  | 127 => ⟨S50000x128, .f32⟩
  | _ => ⟨S50000x128, .f32⟩

abbrev hbmTy0_1 (i : Nat) : BufTy := match i % 128 with
  | 0 => ⟨S1650000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000, .i32⟩
  | 9 => ⟨S1650000, .i32⟩
  | 10 => ⟨S1650000, .i32⟩
  | 11 => ⟨S_, .f32⟩
  | 12 => ⟨S50000, .f32⟩
  | 13 => ⟨S1650000, .f32⟩
  | 14 => ⟨S_, .f32⟩
  | 15 => ⟨S50000, .f32⟩
  | 16 => ⟨S1650000x1, .i32⟩
  | 17 => ⟨S50000, .f32⟩
  | 18 => ⟨S_, .f32⟩
  | 19 => ⟨S50000, .f32⟩
  | 20 => ⟨S50000, .i1⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S1650000, .i32⟩
  | 28 => ⟨S1650000, .i1⟩
  | 29 => ⟨S_, .i32⟩
  | 30 => ⟨S1650000, .i32⟩
  | 31 => ⟨S1650000, .i32⟩
  | 32 => ⟨S1650000, .i32⟩
  | 33 => ⟨S1650000x1, .i32⟩
  | 34 => ⟨S1650000, .f32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S50000x128, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S64x128, .f32⟩
  | 68 => ⟨S50000x1, .i32⟩
  | 69 => ⟨S64x128, .f32⟩
  | 70 => ⟨S_, .f32⟩
  | 71 => ⟨S50000, .f32⟩
  | 72 => ⟨S_, .f32⟩
  | 73 => ⟨S64, .f32⟩
  | 74 => ⟨S50000x1, .i32⟩
  | 75 => ⟨S64, .f32⟩
  | 76 => ⟨S_, .f32⟩
  | 77 => ⟨S64, .f32⟩
  | 78 => ⟨S64, .f32⟩
  | 79 => ⟨S64x1, .f32⟩
  | 80 => ⟨S64x128, .f32⟩
  | 81 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_23 : Ref sig .tc := ⟨.hbm, 150, rfl⟩
abbrev main_call4_v0 : Ref sig .tc := ⟨.hbm, 151, rfl⟩
abbrev main_call4_v1 : Ref sig .tc := ⟨.hbm, 152, rfl⟩
abbrev main_v107 : Ref sig .tc := ⟨.hbm, 153, rfl⟩
abbrev main_c_24 : Ref sig .tc := ⟨.hbm, 154, rfl⟩
abbrev main_v108 : Ref sig .tc := ⟨.hbm, 155, rfl⟩
abbrev main_v109 : Ref sig .tc := ⟨.hbm, 156, rfl⟩
abbrev main_c_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_26 : Ref sig .tc := ⟨.hbm, 164, rfl⟩
abbrev main_v116 : Ref sig .tc := ⟨.hbm, 165, rfl⟩
abbrev main_v117 : Ref sig .tc := ⟨.hbm, 166, rfl⟩
abbrev main_c_27 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_c_28 : Ref sig .tc := ⟨.hbm, 175, rfl⟩
abbrev main_v125 : Ref sig .tc := ⟨.hbm, 176, rfl⟩
abbrev main_v126 : Ref sig .tc := ⟨.hbm, 177, rfl⟩
abbrev main_c_29 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_30 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_31 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_32 : Ref sig .tc := ⟨.hbm, 198, rfl⟩
abbrev main_v144 : Ref sig .tc := ⟨.hbm, 199, rfl⟩
abbrev main_cst_33 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_34 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelLin0.lean ====
/-
  Region 0 of the kernel's program: the first layer's feature transform, one 2000-row block of the
  node features times the whole 128 x 128 weight matrix per grid point, 25 points.

  Everything is stated at a parameter `V`, the contents of the TensorCore's buffers when the region is
  entered, and for any float instance.  At a point `t` the body reads block `t` of the feature array
  (rows 2000 t … 2000 t + 1999) and the weight matrix, and stores their product, accumulated from zero,
  over the whole output block; the block is written back at every point.  So the proof data say: an
  input window's buffer holds its block, the output window's buffer holds the product of the two
  blocks, the invariant is the untouched scoped rest, nothing is owed.
-/
import proofs.«427342_j8916352106736_1_alg».proof.Proof.Gen.Kernel.Launch
import proofs.«427342_j8916352106736_1_alg».proof.Proof.Gen.Kernel.Skeleton
import proofs.«427342_j8916352106736_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds block `t` of the feature array at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weight matrix at every point: it is fetched once, and its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's whole-buffer rectangles. -/
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

/-- What the body leaves in the output window's buffer: its one store, the product of the two loaded
    blocks, over the whole block. -/
def out0_2 (x0 : Vec F S2000x128 .f32) (x1 : Vec F S128x128 .f32) : Vec F S2000x128 .f32 :=
  View.canon [⟨r0_x, k0_pay1 (View.ld x0 r0_x) (View.ld x1 r0_w)⟩]

/-- The one store covers the block. -/
theorem cover0_2 (p0 : Vec F S2000x128 .f32) (y : S2000x128.Idx) :
    ∃ pc ∈ ([⟨r0_x, p0⟩] : List (View.Piece (Elt F) S2000x128 .f32)), y ∈ pc.1.set :=
  View.cover_of_tiled [⟨r0_x, p0⟩] S2000x128.size (by rfl) y

set_option maxHeartbeats 1000000 in
/-- The body on whole buffers, the inputs' at `x0`, `x1` and the output's at anything: it ends with the
    inputs' as they were and the output's at `out0_2 x0 x1`. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelLin1.lean ====
/-
  Region 1 of the kernel's program: the second layer's feature transform, one 2000-row block of the
  previous layer's activations times the whole 128 x 128 weight matrix per grid point, 25 points.

  Everything is stated at a parameter `V`, the contents of the TensorCore's buffers when the region is
  entered, and for any float instance.  At a point `t` the body reads block `t` of the feature array
  (rows 2000 t … 2000 t + 1999) and the weight matrix, and stores their product, accumulated from zero,
  over the whole output block; the block is written back at every point.  So the proof data say: an
  input window's buffer holds its block, the output window's buffer holds the product of the two
  blocks, the invariant is the untouched scoped rest, nothing is owed.
-/
import proofs.«427342_j8916352106736_1_alg».proof.Proof.Gen.Kernel.Launch
import proofs.«427342_j8916352106736_1_alg».proof.Proof.Gen.Kernel.Skeleton
import proofs.«427342_j8916352106736_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current buffer holds block `t` of the feature array at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the weight matrix at every point: it is fetched once, and its
    block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's whole-buffer rectangles. -/
abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0

/-- What the body leaves in the output window's buffer: its one store, the product of the two loaded
    blocks, over the whole block. -/
def out1_2 (x0 : Vec F S2000x128 .f32) (x1 : Vec F S128x128 .f32) : Vec F S2000x128 .f32 :=
  View.canon [⟨r1_x, k1_pay1 (View.ld x0 r1_x) (View.ld x1 r1_w)⟩]

/-- The one store covers the block. -/
theorem cover1_2 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 1000000 in
/-- The body on whole buffers, the inputs' at `x0`, `x1` and the output's at anything: it ends with the
    inputs' as they were and the output's at `out1_2 x0 x1`. -/
theorem sound_kernel1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelLin2.lean ====
/-
  Region 2 of the kernel's program: the third layer's feature transform, one 2000-row block of the
  previous layer's activations times the whole 128 x 128 weight matrix per grid point, 25 points.

  Everything is stated at a parameter `V`, the contents of the TensorCore's buffers when the region is
  entered, and for any float instance.  At a point `t` the body reads block `t` of the feature array
  (rows 2000 t … 2000 t + 1999) and the weight matrix, and stores their product, accumulated from zero,
  over the whole output block; the block is written back at every point.  So the proof data say: an
  input window's buffer holds its block, the output window's buffer holds the product of the two
  blocks, the invariant is the untouched scoped rest, nothing is owed.
-/
import proofs.«427342_j8916352106736_1_alg».proof.Proof.Gen.Kernel.Launch
import proofs.«427342_j8916352106736_1_alg».proof.Proof.Gen.Kernel.Skeleton
import proofs.«427342_j8916352106736_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's current buffer holds block `t` of the feature array at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the weight matrix at every point: it is fetched once, and its
    block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's whole-buffer rectangles. -/
abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0

/-- What the body leaves in the output window's buffer: its one store, the product of the two loaded
    blocks, over the whole block. -/
def out2_2 (x0 : Vec F S2000x128 .f32) (x1 : Vec F S128x128 .f32) : Vec F S2000x128 .f32 :=
  View.canon [⟨r2_x, k2_pay1 (View.ld x0 r2_x) (View.ld x1 r2_w)⟩]

/-- The one store covers the block. -/
theorem cover2_2 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole buffers, the inputs' at `x0`, `x1` and the output's at anything: it ends with the
    inputs' as they were and the output's at `out2_2 x0 x1`. -/
theorem sound_kernel2 (c : Dev nD) (E : Set ℕ) (i : grid2.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelPool.lean ====
import proofs.«427342_j8916352106736_1_alg».proof.Proof.Gen.Kernel.Launch
import proofs.«427342_j8916352106736_1_alg».proof.Proof.Gen.Kernel.Skeleton
import proofs.«427342_j8916352106736_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

/-! # The pooling call: the accumulator point by point

The last call of the program computes `sums = onehotᵀ · h` for a one-hot matrix of 50000 × 64 and features of
50000 × 128, over a grid of 25 points. At point `t` the body reads rows `2000 t … 2000 t + 1999` of both
(a 2000 × 64 block and a 2000 × 128 block) and adds the product of the transposed one-hot block with the feature
block, rounded to bf16 on the way in and accumulated in f32, to a 64 × 128 accumulator. The accumulator lives in a
scratch buffer that is CARRIED from point to point:

* at the first point the body first fills it with zeros, so after point 0 it holds `0 + P₀`;
* after point `n + 1` it holds what point `n` left plus `P₍ₙ₊₁₎` (`acc3`, by recursion on the point);
* at the last point, and only there, the body copies it into the output window's buffer, which the pipeline writes
  back there and nowhere else; at every other point that window is idle and its buffer is handed back as found.

So the body has three cases — the first point, a middle point, the last point — and each is run once, on arbitrary
whole memrefs (`runA`, `runB`, `runC`). Everything is stated for any float instance `F` and at a parameter `V`,
the buffer contents when the region is entered. The region invariant `Phi3` is, before the first point, the
class's (every scoped buffer that is no staging buffer of this call at anything, the generator register at some
state), and after point `n` the same with the scratch at `acc3 n`. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the constant function. -/
theorem zeroOff : (![0, 0] : Fin 2 → Nat) = fun _ => 0 := funext fun a => by fin_cases a <;> rfl

/-- The first conditional of the body: the grid coordinate is 0. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional of the body: the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-- The whole-buffer rectangle of a 64x128 buffer. -/
abbrev rAcc : Rect S64x128 := Rect.unit (s := S64x128) ![0, 0] S64x128.size inb_S64x128_S64x128_0_0

/-! ## The body on any staging memrefs, case by case -/

/-- Every index of a 64x128 buffer lies in its whole-buffer rectangle: one such store covers the buffer. -/
theorem coverAcc (p : rAcc.shape.Idx → Elt F .f32) (L : List (View.Piece (Elt F) S64x128 .f32)) (y : S64x128.Idx) :
    ∃ pc ∈ ((⟨rAcc, p⟩ : View.Piece (Elt F) S64x128 .f32) :: L), y ∈ pc.1.set :=
  ⟨_, List.mem_cons_self, View.mem_set_unit_zero zeroOff inb_S64x128_S64x128_0_0 y⟩

set_option maxHeartbeats 1000000 in
/-- CASE A (the first point). The body zeroes the scratch, loads both input blocks, and stores into the scratch the
    zero fill plus the product of the transposed one-hot block with the feature block; the output buffer is not
    touched. -/
theorem runA (c : Dev nD) (i : grid3.Coords)
    (arg1 : Memref sig .tc .vmem S2000x64 .bf16) (harg1 : arg1.IsWhole)
    (arg2 : Memref sig .tc .vmem S2000x128 .f32) (harg2 : arg2.IsWhole)
    (arg3 : Memref sig .tc .vmem S64x128 .f32) (harg3 : arg3.IsWhole)
    (arg4 : Memref sig .tc .vmem S64x128 .f32) (harg4 : arg4.IsWhole)
    (hc0 : cond3_0 i) (hc1 : ¬cond3_1 i)
    (x0 : Vec F S2000x64 .bf16) (x1 : Vec F S2000x128 .f32) (xi2 : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ (∃ d, owns (c : Thread nD τ) arg4 fullShare d)
        ∗ (iprop(owns (c : Thread nD τ) arg1 fullShare x0 ∗ owns (c : Thread nD τ) arg2 fullShare x1
            ∗ owns (c : Thread nD τ) arg3 fullShare xi2
            ∗ owns (c : Thread nD τ) arg4 fullShare (k3_pay2 x0 x1 (k3_pay1 (F := F)))) -∗ K ⟨⟩))
      ⊢ wp frame (wpE (defs₀ (F := F)) Variants.none c none) E
          (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (coverAcc _ _)]
  rw [View.canon_cons_unit_zero (S := S64x128) zeroOff]
  simp only [View.readAt_eq_ld, harg1.read_unread, harg2.read_unread,
    View.ld_unit_zero (S := S2000x64) zeroOff, View.ld_unit_zero (S := S2000x128) zeroOff,
    View.readCov_unit_zero (S := S64x128) _ zeroOff]

set_option maxHeartbeats 1000000 in
/-- CASE B (a point that is neither the first nor the last). The scratch holds `xs`, what the point before left;
    the body loads both input blocks and stores into the scratch `xs` plus their product; the output buffer is
    not touched. -/
theorem runB (c : Dev nD) (i : grid3.Coords)
    (arg1 : Memref sig .tc .vmem S2000x64 .bf16) (harg1 : arg1.IsWhole)
    (arg2 : Memref sig .tc .vmem S2000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond3_0 i) (hc1 : ¬cond3_1 i)
    (x0 : Vec F S2000x64 .bf16) (x1 : Vec F S2000x128 .f32) (xi2 : Vec F S64x128 .f32) (xs : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xs
        ∗ (iprop(owns (c : Thread nD τ) arg1 fullShare x0 ∗ owns (c : Thread nD τ) arg2 fullShare x1
            ∗ owns (c : Thread nD τ) arg3 fullShare xi2
            ∗ owns (c : Thread nD τ) arg4 fullShare (k3_pay2 x0 x1 xs)) -∗ K ⟨⟩))
      ⊢ wp frame (wpE (defs₀ (F := F)) Variants.none c none) E
          (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (coverAcc _ _)]
  rw [View.canon_cons_unit_zero (S := S64x128) zeroOff]
  simp only [View.readAt_eq_ld, harg1.read_unread, harg2.read_unread, harg4.read_unread,
    View.ld_unit_zero (S := S2000x64) zeroOff, View.ld_unit_zero (S := S2000x128) zeroOff,
    View.ld_unit_zero (S := S64x128) zeroOff]

set_option maxHeartbeats 1000000 in
/-- CASE C (the last point). As case B, and then the body copies the scratch, at its new contents, into the output
    buffer, whatever that held. -/
theorem runC (c : Dev nD) (i : grid3.Coords)
    (arg1 : Memref sig .tc .vmem S2000x64 .bf16) (harg1 : arg1.IsWhole)
    (arg2 : Memref sig .tc .vmem S2000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond3_0 i) (hc1 : cond3_1 i)
    (x0 : Vec F S2000x64 .bf16) (x1 : Vec F S2000x128 .f32) (xs : Vec F S64x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E
          (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (coverAcc _ _)]
    rw [View.canon_cons_unit_zero (S := S64x128) zeroOff]
    simp only [View.readAt_eq_ld, harg1.read_unread, harg2.read_unread, harg4.read_unread,
      View.ld_unit_zero (S := S2000x64) zeroOff, View.ld_unit_zero (S := S2000x128) zeroOff,
      View.ld_unit_zero (S := S64x128) zeroOff, View.readCov_unit_zero (S := S64x128) _ zeroOff]
  iexists _; isplitr
  swap; · iexact HS0
  ipureintro
  sl_unfold_words
  rw [View.read_writes_eq_canon _ _ _ (coverAcc _ _)]
  rw [View.canon_cons_unit_zero (S := S64x128) zeroOff]
  simp only [View.readAt_eq_ld, harg1.read_unread, harg2.read_unread, harg4.read_unread,
    View.ld_unit_zero (S := S2000x64) zeroOff, View.ld_unit_zero (S := S2000x128) zeroOff,
    View.ld_unit_zero (S := S64x128) zeroOff]

/-! ## Where the windows are idle -/

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Away from the last point the output window is idle: the body stores nothing into it, -/
theorem idleAt3_2 : ∀ t : Fin cfg3.N, ¬cond3_1 (grid3.coords t) → cfg3.idle 2 (grid3.coords t) = true := by decide +kernel
/-- and its block is not written back there. -/
theorem noFlush3_2 : ∀ t : Fin cfg3.N, ¬cond3_1 (grid3.coords t) → (cfg3.win 2).flush t = false := by decide +kernel
/-- At the last point the output window is live: the body stores into it. -/
theorem liveAt3_2 : ∀ t : Fin cfg3.N, cond3_1 (grid3.coords t) → cfg3.idle 2 (grid3.coords t) = false := by decide +kernel

/-! ## The region invariant's scoped buffers -/

/-- The scratch accumulator the body carries between points, as a whole memref. -/
abbrev scM3 : Memref sig .tc .vmem S64x128 .f32 := Memref.whole cc3_scratch0

/-- The core's scoped buffers that are neither a staging buffer of this call nor its scratch, each at some
    contents: the body touches none of them. -/
abbrev others3 (c : Dev nD) : sProp 𝕄 :=
  Pipeline.scopedRestBut (Ix := Unit) (Name := ℕ) (U := UR sig nD τ) (Lvl := ℕ) (Val := Elt F) spec3 c [cc3_scratch0]

/-- The class's invariant with the scratch split off as a memref owned at some contents. -/
theorem PhiA3_eq (c : Dev nD) :
    (Pipeline.ΦA spec3 c : sProp 𝕄)
      = iprop(iprop((∃ d, owns (c : Thread nD τ) scM3 fullShare d) ∗ others3 c) ∗ (∃ r, prngReg c r)) := by
  unfold Pipeline.ΦA
  rw [Pipeline.scopedRest_split_of_list spec3 c [cc3_scratch0] (by decide) (by decide)]
  simp only [bigSepL_singleton, scM3, owns_whole]; try rfl

section Region
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the scratch holds after each point -/

/-- THE ACCUMULATION. The scratch after the body at point `n`: after the first point the zero fill plus the
    product of point 0's transposed one-hot block with its feature block; after point `n + 1` what point `n`
    left plus the product of point `n + 1`'s blocks. -/
def acc3 (c : Dev nD) : (n : ℕ) → n < cfg3.N → Vec F S64x128 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (acc3 c n (Nat.lt_of_succ_lt hn))

theorem acc3_zero (c : Dev nD) (hn : 0 < cfg3.N) :
    acc3 V c 0 hn = k3_pay2 (iblk3 V c 0 ⟨0, hn⟩) (iblk3 V c 1 ⟨0, hn⟩) (k3_pay1 (F := F)) := rfl

theorem acc3_succ (c : Dev nD) (n : ℕ) (hn : n + 1 < cfg3.N) :
    acc3 V c (n + 1) hn = k3_pay2 (iblk3 V c 0 ⟨n + 1, hn⟩) (iblk3 V c 1 ⟨n + 1, hn⟩) (acc3 V c n (Nat.lt_of_succ_lt hn)) := rfl

/-- At the first point, stated at the point. -/
theorem acc3_first (c : Dev nD) (t : Fin cfg3.N) (h0 : t.val = 0) :
    acc3 V c t.val t.isLt = k3_pay2 (iblk3 V c 0 t) (iblk3 V c 1 t) (k3_pay1 (F := F)) := by
  obtain ⟨n, hn⟩ := t
  cases n with
  | zero => rfl
  | succ n => exact absurd h0 (Nat.succ_ne_zero n)

/-- At a later point, stated at the point: over what the point before left. -/
theorem acc3_later (c : Dev nD) (t : Fin cfg3.N) (h0 : t.val ≠ 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd rfl h0
  | succ n => rfl

/-- The region invariant before position `n`: before the first point the class's (every scoped buffer that is
    no staging buffer at anything, the generator register at some state); afterwards the same with the scratch
    at what the point before left in it. -/
def Phi3 (c : Dev nD) : (n : ℕ) → n ≤ cfg3.N → sProp 𝕄
  | 0, _ => Pipeline.ΦA spec3 c
  | n + 1, hn => iprop(iprop(owns (c : Thread nD τ) scM3 fullShare (acc3 V c n hn) ∗ others3 c) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn) ∗ others3 c) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega)) ∗ others3 c) ∗ (∃ r, prngReg c r)) := by
  cases n with
  | zero => exact absurd rfl hz
  | succ n => rfl

/-! ## The pipeline's proof data -/

/-- The proof data of the pool call on core `c`: the arrays as the region finds them (`V`); after the body at
    point `t` each input's buffer at its block and the output's at the scratch's contents after that point (it
    is stored, and written back, at the last point only); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl
theorem owed_eq3 (c : Dev nD) (t : Fin (cfg3.N + 1)) : (dat3 V c).owed t = 0 := rfl

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- Each window's current staging memref at point `t`, as the pipeline passes it to the body, and its wholeness. -/
abbrev ms3_0 (t : Fin cfg3.N) : Memref sig .tc .vmem S2000x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

/-- The input windows are live at every point: the body leaves each at its block. -/
theorem leaves3_0 (c : Dev nD) (t : Fin cfg3.N) :
    (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]

set_option maxHeartbeats 1600000 in
/-- The body at the first point: the invariant hands it the scratch at anything and takes it back at the first
    partial sum; the output window is idle. -/
theorem sound_body3_A (c : Dev nD) (t : Fin cfg3.N) (h0 : t.val = 0) :
    bodyPre3 V c t ⊢ wp frame (wpE (defs₀ (F := F)) Variants.none c none) Set.univ (bodyAt3 t) (fun _ => bodyPost3 V c t) := by
  have hN : t.val < 25 := lt_of_lt_of_eq t.isLt (show cfg3.N = 25 from N_3)
  have hc0 : cond3_0 (grid3.coords t) := (hcond3_0 t).mpr h0
  have hc1 : ¬cond3_1 (grid3.coords t) := fun h => by have := (hcond3_1 t).mp h; omega
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [leaves3_0, leaves3_1, Dat.leavesExact_idle (dat3 V c) 2 t (idleAt3_2 t hc1) (noFlush3_2 t hc1)]
  rw [acc3_first V c t h0]
  rw [Phi3_castSucc V c t, Phi3_zero V c _ _ h0, PhiA3_eq]
  iintro ⟨⟨⟨HS0, Hr⟩, Hg⟩, Ho, ⟨%d0, H0⟩, ⟨%d1, H1⟩, ⟨%d2, H2⟩⟩
  iapply (runA c (grid3.coords t) _ _ _ _ _ _ _ _ hc0 hc1 (iblk3 V c 0 t) (iblk3 V c 1 t) ((dat3 V c).before 2 t d2) Set.univ _)
  isplitl [H0]; · iexact H0
  isplitl [H1]; · iexact H1
  isplitl [H2]; · iexact H2
  isplitl [HS0]; · iexact HS0
  iintro ⟨H0, H1, H2, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  iexists _; iexact H2

set_option maxHeartbeats 1600000 in
/-- The body at a point that is neither the first nor the last: the scratch goes from what the point before left to
    that plus this point's product; the output window is idle. -/
theorem sound_body3_B (c : Dev nD) (t : Fin cfg3.N) (h0 : t.val ≠ 0) (h1 : t.val ≠ 24) :
    bodyPre3 V c t ⊢ wp frame (wpE (defs₀ (F := F)) Variants.none c none) Set.univ (bodyAt3 t) (fun _ => bodyPost3 V c t) := by
  have hc0 : ¬cond3_0 (grid3.coords t) := fun h => h0 ((hcond3_0 t).mp h)
  have hc1 : ¬cond3_1 (grid3.coords t) := fun h => h1 ((hcond3_1 t).mp h)
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [leaves3_0, leaves3_1, Dat.leavesExact_idle (dat3 V c) 2 t (idleAt3_2 t hc1) (noFlush3_2 t hc1)]
  rw [acc3_later V c t h0]
  rw [Phi3_castSucc V c t, Phi3_pos V c _ _ h0]
  iintro ⟨⟨⟨HS0, Hr⟩, Hg⟩, Ho, ⟨%d0, H0⟩, ⟨%d1, H1⟩, ⟨%d2, H2⟩⟩
  iapply (runB c (grid3.coords t) _ _ _ _ _ _ _ _ hc0 hc1 (iblk3 V c 0 t) (iblk3 V c 1 t) ((dat3 V c).before 2 t d2) _ Set.univ _)
  isplitl [H0]; · iexact H0
  isplitl [H1]; · iexact H1
  isplitl [H2]; · iexact H2
  isplitl [HS0]; · iexact HS0
  iintro ⟨H0, H1, H2, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  iexists _; iexact H2

set_option maxHeartbeats 1600000 in
/-- The body at the last point: as at the points before, and the output window, live here, is left at the scratch's
    final contents. -/
theorem sound_body3_C (c : Dev nD) (t : Fin cfg3.N) (h1 : t.val = 24) :
    bodyPre3 V c t ⊢ wp frame (wpE (defs₀ (F := F)) Variants.none c none) Set.univ (bodyAt3 t) (fun _ => bodyPost3 V c t) := by
  have h0 : t.val ≠ 0 := by omega
  have hc0 : ¬cond3_0 (grid3.coords t) := fun h => h0 ((hcond3_0 t).mp h)
  have hc1 : cond3_1 (grid3.coords t) := (hcond3_1 t).mpr h1
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [leaves3_0, leaves3_1]
  rw [show (dat3 V c).leavesExact 2 t = owns (c : Thread nD τ) (ms3_2 t) fullShare ((dat3 V c).after 2 t) from by
    unfold Dat.leavesExact; rw [liveAt3_2 t hc1], after3_2]
  rw [acc3_later V c t h0]
  rw [Phi3_castSucc V c t, Phi3_pos V c _ _ h0]
  iintro ⟨⟨⟨HS0, Hr⟩, Hg⟩, Ho, ⟨%d0, H0⟩, ⟨%d1, H1⟩, ⟨%d2, H2⟩⟩
  iapply (runC c (grid3.coords t) _ _ _ _ _ _ _ _ hc0 hc1 (iblk3 V c 0 t) (iblk3 V c 1 t) _ Set.univ _)
  isplitl [H0]; · iexact H0
  isplitl [H1]; · iexact H1
  isplitl [H2]; · iexists _; iexact H2
  isplitl [HS0]; · iexact HS0
  iintro ⟨H0, H1, H2, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  iexact H2

/-- The body at any point, by its three cases. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val = 0
  · exact sound_body3_A V c t h0
  · by_cases h1 : t.val = 24
    · exact sound_body3_C V c t h1
    · exact sound_body3_B V c t h0 h1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point the invariant gives the class's back: what the scratch holds is forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi3_out V c _ (by rw [Fin.val_last]; have : cfg3.N = 25 := N_3; omega)

end Region

end Cert.Kernel.Hand

end
-- ==== Proof.KernelRun.lean ====
/-
  The kernel's program from launch to return, as thirteen segments: nine stretches of host operations and the
  four kernel regions between them.

  The contents of the TensorCore's unscoped buffers are followed from boundary to boundary: a host stretch
  applies its operations in order; a region changes only its output array, which ends at what the region's
  write-backs leave in it (for the three feature transforms: block t of the output is the product of block t
  of the input and the weight matrix; for the pooling region: the one output block is what the scratch
  accumulator holds after the last point).  Every weakly fair execution then terminates without a fault, and
  every unscoped buffer ends at the last boundary's contents — in particular the arguments, which nothing
  writes, and the result.
-/
import proofs.«427342_j8916352106736_1_alg».proof.Proof.KernelLin0
import proofs.«427342_j8916352106736_1_alg».proof.Proof.KernelLin1
import proofs.«427342_j8916352106736_1_alg».proof.Proof.KernelLin2
import proofs.«427342_j8916352106736_1_alg».proof.Proof.KernelPool
import proofs.«427342_j8916352106736_1_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A boundary's contents read at the TensorCore's references: what a region's proof data take. -/
abbrev rd (W : Dev nD → Valuation τ sig (Elt F)) : (c : Dev nD) → (b : Ref sig .tc) → Buf (Elt F) ((c : Thread nD τ).loc b) :=
  fun c b => W c b

/-! ## The buffers' contents at each boundary -/

/-- At launch. -/
abbrev W0 : Dev nD → Valuation τ sig (Elt F) := fun c b => m (c, b)
/-- After the first three host stretches (the edge lists with self-loops, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)

/-- After region 0: as before it, except that `main_v32` holds what the region's write-backs leave. -/
def W4 (c : Dev nD) : Valuation τ sig (Elt F) :=
  Function.update (W3 m c) (Proc.devRef .tc main_v32) ((dat0 (rd (W3 m)) c).arrAt 2 cfg0.N)
theorem W4_out (c : Dev nD) : W4 m c (Proc.devRef .tc main_v32) = (dat0 (rd (W3 m)) c).arrAt 2 cfg0.N := by
  unfold W4; exact Function.update_self ..
theorem W4_of_ne (c : Dev nD) (b : Ref sig .tc) (hb : b ≠ main_v32) : W4 m c (Proc.devRef .tc b) = W3 m c (Proc.devRef .tc b) := by
  unfold W4; exact Function.update_of_ne (StableHlo.devRef_ne_of_ne hb) _ _
/-- Each array of the region holds at the exit what the pipeline leaves in it: the two inputs what they held, the
    output its write-backs. -/
theorem hF0 (c : Dev nD) : ∀ w : Fin cfg0.W, (dat0 (rd (W3 m)) c).arrAt w cfg0.N = rd (W4 m) c (Pipeline.arrRef spec0 w)
  | ⟨0, _⟩ => ((dat0 (rd (W3 m)) c).arrAt_in 0 rfl _).trans (((A_eq0 (rd (W3 m)) c 0)).trans (W4_of_ne m c main_arg0 (by decide)).symm)
  | ⟨1, _⟩ => ((dat0 (rd (W3 m)) c).arrAt_in 1 rfl _).trans (((A_eq0 (rd (W3 m)) c 1)).trans (W4_of_ne m c main_arg4 (by decide)).symm)
  | ⟨2, _⟩ => (W4_out m c).symm
/-- Every other buffer holds what it held at the entry. -/
theorem hrest0 (c : Dev nD) : ∀ b, b ∉ Finset.univ.image (Pipeline.arrRef spec0) → rd (W4 m) c b = rd (W3 m) c b :=
  fun b hb => W4_of_ne m c b fun e => hb (Finset.mem_image.mpr ⟨2, Finset.mem_univ _, e.symm⟩)

/-- After the first layer's message passing, bias and rectifier. -/
abbrev W5 : Dev nD → Valuation τ sig (Elt F) := fun c => StableHlo.after hostOps1 (W4 m c)
abbrev W6 : Dev nD → Valuation τ sig (Elt F) := fun c => StableHlo.after hostOps1_1 (W5 m c)

/-- After region 1: as before it, except that `main_v50` holds what the region's write-backs leave. -/
def W7 (c : Dev nD) : Valuation τ sig (Elt F) :=
  Function.update (W6 m c) (Proc.devRef .tc main_v50) ((dat1 (rd (W6 m)) c).arrAt 2 cfg1.N)
theorem W7_out (c : Dev nD) : W7 m c (Proc.devRef .tc main_v50) = (dat1 (rd (W6 m)) c).arrAt 2 cfg1.N := by
  unfold W7; exact Function.update_self ..
theorem W7_of_ne (c : Dev nD) (b : Ref sig .tc) (hb : b ≠ main_v50) : W7 m c (Proc.devRef .tc b) = W6 m c (Proc.devRef .tc b) := by
  unfold W7; exact Function.update_of_ne (StableHlo.devRef_ne_of_ne hb) _ _
/-- Each array of the region holds at the exit what the pipeline leaves in it: the two inputs what they held, the
    output its write-backs. -/
theorem hF1 (c : Dev nD) : ∀ w : Fin cfg1.W, (dat1 (rd (W6 m)) c).arrAt w cfg1.N = rd (W7 m) c (Pipeline.arrRef spec1 w)
  | ⟨0, _⟩ => ((dat1 (rd (W6 m)) c).arrAt_in 0 rfl _).trans (((A_eq1 (rd (W6 m)) c 0)).trans (W7_of_ne m c main_v49 (by decide)).symm)
  | ⟨1, _⟩ => ((dat1 (rd (W6 m)) c).arrAt_in 1 rfl _).trans (((A_eq1 (rd (W6 m)) c 1)).trans (W7_of_ne m c main_arg6 (by decide)).symm)
  | ⟨2, _⟩ => (W7_out m c).symm
/-- Every other buffer holds what it held at the entry. -/
theorem hrest1 (c : Dev nD) : ∀ b, b ∉ Finset.univ.image (Pipeline.arrRef spec1) → rd (W7 m) c b = rd (W6 m) c b :=
  fun b hb => W7_of_ne m c b fun e => hb (Finset.mem_image.mpr ⟨2, Finset.mem_univ _, e.symm⟩)

/-- After the second layer's message passing, bias and rectifier. -/
abbrev W8 : Dev nD → Valuation τ sig (Elt F) := fun c => StableHlo.after hostOps2 (W7 m c)
abbrev W9 : Dev nD → Valuation τ sig (Elt F) := fun c => StableHlo.after hostOps2_1 (W8 m c)

/-- After region 2: as before it, except that `main_v68` holds what the region's write-backs leave. -/
def W10 (c : Dev nD) : Valuation τ sig (Elt F) :=
  Function.update (W9 m c) (Proc.devRef .tc main_v68) ((dat2 (rd (W9 m)) c).arrAt 2 cfg2.N)
theorem W10_out (c : Dev nD) : W10 m c (Proc.devRef .tc main_v68) = (dat2 (rd (W9 m)) c).arrAt 2 cfg2.N := by
  unfold W10; exact Function.update_self ..
theorem W10_of_ne (c : Dev nD) (b : Ref sig .tc) (hb : b ≠ main_v68) : W10 m c (Proc.devRef .tc b) = W9 m c (Proc.devRef .tc b) := by
  unfold W10; exact Function.update_of_ne (StableHlo.devRef_ne_of_ne hb) _ _
/-- Each array of the region holds at the exit what the pipeline leaves in it: the two inputs what they held, the
    output its write-backs. -/
theorem hF2 (c : Dev nD) : ∀ w : Fin cfg2.W, (dat2 (rd (W9 m)) c).arrAt w cfg2.N = rd (W10 m) c (Pipeline.arrRef spec2 w)
  | ⟨0, _⟩ => ((dat2 (rd (W9 m)) c).arrAt_in 0 rfl _).trans (((A_eq2 (rd (W9 m)) c 0)).trans (W10_of_ne m c main_v67 (by decide)).symm)
  | ⟨1, _⟩ => ((dat2 (rd (W9 m)) c).arrAt_in 1 rfl _).trans (((A_eq2 (rd (W9 m)) c 1)).trans (W10_of_ne m c main_arg8 (by decide)).symm)
  | ⟨2, _⟩ => (W10_out m c).symm
/-- Every other buffer holds what it held at the entry. -/
theorem hrest2 (c : Dev nD) : ∀ b, b ∉ Finset.univ.image (Pipeline.arrRef spec2) → rd (W10 m) c b = rd (W9 m) c b :=
  fun b hb => W10_of_ne m c b fun e => hb (Finset.mem_image.mpr ⟨2, Finset.mem_univ _, e.symm⟩)

/-- After the third layer's message passing and bias, and the one-hot matrix of the graph labels. -/
abbrev W11 : Dev nD → Valuation τ sig (Elt F) := fun c => StableHlo.after hostOps3 (W10 m c)

/-- After region 3: as before it, except that `main_v92` holds what the region's write-backs leave. -/
def W12 (c : Dev nD) : Valuation τ sig (Elt F) :=
  Function.update (W11 m c) (Proc.devRef .tc main_v92) ((dat3 (rd (W11 m)) c).arrAt 2 cfg3.N)
theorem W12_out (c : Dev nD) : W12 m c (Proc.devRef .tc main_v92) = (dat3 (rd (W11 m)) c).arrAt 2 cfg3.N := by
  unfold W12; exact Function.update_self ..
theorem W12_of_ne (c : Dev nD) (b : Ref sig .tc) (hb : b ≠ main_v92) : W12 m c (Proc.devRef .tc b) = W11 m c (Proc.devRef .tc b) := by
  unfold W12; exact Function.update_of_ne (StableHlo.devRef_ne_of_ne hb) _ _
/-- Each array of the region holds at the exit what the pipeline leaves in it: the two inputs what they held, the
    output its write-backs. -/
theorem hF3 (c : Dev nD) : ∀ w : Fin cfg3.W, (dat3 (rd (W11 m)) c).arrAt w cfg3.N = rd (W12 m) c (Pipeline.arrRef spec3 w)
  | ⟨0, _⟩ => ((dat3 (rd (W11 m)) c).arrAt_in 0 rfl _).trans (((A_eq3 (rd (W11 m)) c 0)).trans (W12_of_ne m c main_v91 (by decide)).symm)
  | ⟨1, _⟩ => ((dat3 (rd (W11 m)) c).arrAt_in 1 rfl _).trans (((A_eq3 (rd (W11 m)) c 1)).trans (W12_of_ne m c main_v84 (by decide)).symm)
  | ⟨2, _⟩ => (W12_out m c).symm
/-- Every other buffer holds what it held at the entry. -/
theorem hrest3 (c : Dev nD) : ∀ b, b ∉ Finset.univ.image (Pipeline.arrRef spec3) → rd (W12 m) c b = rd (W11 m) c b :=
  fun b hb => W12_of_ne m c b fun e => hb (Finset.mem_image.mpr ⟨2, Finset.mem_univ _, e.symm⟩)

/-- After the counts and the division: the return. -/
abbrev W13 : Dev nD → Valuation τ sig (Elt F) := fun c => StableHlo.after hostOps4 (W12 m c)

/-! ## What each stretch leaves alone

A host stretch changes only the buffers its operations write; a region only its output array. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h
theorem W11_of (c : Dev nD) (r : Ref sig .tc) (h : r ∉ hostOps3_W) : W11 m c r = W10 m c r :=
  StableHlo.after_of_writes_sub hostOps3 _ hostOps3_writes h
theorem W13_of (c : Dev nD) (r : Ref sig .tc) (h : r ∉ hostOps4_W) : W13 m c r = W12 m c r :=
  StableHlo.after_of_writes_sub hostOps4 _ hostOps4_writes h

/-- An argument of the program ends as launched: no stretch and no region writes it. -/
theorem W13_arg (c : Dev nD) (r : Ref sig .tc)
    (h0 : r ∉ hostOps0_W) (h1 : r ∉ hostOps0_1_W) (h2 : r ∉ hostOps0_2_W) (h3 : r ≠ main_v32) (h4 : r ∉ hostOps1_W)
    (h5 : r ∉ hostOps1_1_W) (h6 : r ≠ main_v50) (h7 : r ∉ hostOps2_W) (h8 : r ∉ hostOps2_1_W) (h9 : r ≠ main_v68)
    (h10 : r ∉ hostOps3_W) (h11 : r ≠ main_v92) (h12 : r ∉ hostOps4_W) :
    W13 m c r = m ((c : Thread nD τ).loc r) :=
  (W13_of m c r h12).trans <| (W12_of_ne m c r h11).trans <| (W11_of m c r h10).trans <| (W10_of_ne m c r h9).trans <|
    (W9_of m c r h8).trans <| (W8_of m c r h7).trans <| (W7_of_ne m c r h6).trans <| (W6_of m c r h5).trans <|
    (W5_of m c r h4).trans <| (W4_of_ne m c r h3).trans <| (W3_of m c r h2).trans <| (W2_of m c r h1).trans <|
    (W1_of m c r h0).trans rfl

/-! ## The proof data family and the thread state -/

/-- No pallas_call has a prefetched table. -/
abbrev adm : (p : Fin 4) → (pcfgs (F := F) p).Adm := fun p => (cfgs p).toPCfg_adm
/-- Every region's proof data, each at its entry contents. -/
def pdats : (p : Fin 4) → (c : Dev nD) → Dat τ (Elt F) Unit ℕ (UR sig nD τ) ℕ (Pipeline.pin (pcfgs (F := F)) adm p) c
  | ⟨0, _⟩ => fun c => dat0 (rd (W3 m)) c
  | ⟨1, _⟩ => fun c => dat1 (rd (W6 m)) c
  | ⟨2, _⟩ => fun c => dat2 (rd (W9 m)) c
  | ⟨3, _⟩ => fun c => dat3 (rd (W11 m)) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The rest state ends owing nothing. -/
theorem R_owes (c : Dev nD) : (R c : sProp 𝕄) ⊢ iprop(∃ W, owes (c : Thread nD τ) (0 : CellTallies nD τ sig Unit) W) := by
  iintro ⟨-, HO⟩; iexact HO
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at `W3`, left with them at `W4`.  Its arrays
    are split out of the unscoped buffers on the way in and put back on the way out; the generator register goes
    into the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (rd (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W3 m) c) (rd (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W6`, left with them at `W7`.  Its arrays
    are split out of the unscoped buffers on the way in and put back on the way out; the generator register goes
    into the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (rd (W6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W6 m) c) (rd (W7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W9`, left with them at `W10`.  Its arrays
    are split out of the unscoped buffers on the way in and put back on the way out; the generator register goes
    into the region's invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W9 m)) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (rd (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W9 m) c) (rd (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W11`, left with them at `W12`.  Its arrays
    are split out of the unscoped buffers on the way in and put back on the way out; the generator register goes
    into the region's invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W11 m)) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (rd (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (rd (W11 m)) c)
    unfold Pipeline.ΦA
    iintro ⟨Hp, -, Hr⟩
    isplitl [Hr]; · iexact Hr
    iexact Hp
  hout c := by
    refine BIBase.Entails.trans (hout3 (rd (W11 m)) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W11 m) c) (rd (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)),
    .region (reg3 m),
    .host (hseg hostOps4 hostOps4_sub hostOps4_fresh (W12 m)) ]

set_option backward.isDefEq.respectTransparency.types false in
/-- Every weakly fair execution of the program from memory `m` with zero counters terminates without a fault, and
    in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W13 m c))
    (hch := fun c => ⟨.rfl, .rfl, .rfl, .rfl, .rfl, .rfl, .rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- The frame: every weakly fair execution terminates without a fault and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W13_arg m c main_arg0 (by decide) (by decide) (by decide) (by decide) (by decide) (by decide) (by decide) (by decide) (by decide) (by decide) (by decide) (by decide) (by decide)),
     (h c _ (mem_uc main_arg1 (by decide))).trans (W13_arg m c main_arg1 (by decide) (by decide) (by decide) (by decide) (by decide) (by decide) (by decide) (by decide) (by decide) (by decide) (by decide) (by decide) (by decide)),
     (h c _ (mem_uc main_arg2 (by decide))).trans (W13_arg m c main_arg2 (by decide) (by decide) (by decide) (by decide) (by decide) (by decide) (by decide) (by decide) (by decide) (by decide) (by decide) (by decide) (by decide)),
     (h c _ (mem_uc main_arg3 (by decide))).trans (W13_arg m c main_arg3 (by decide) (by decide) (by decide) (by decide) (by decide) (by decide) (by decide) (by decide) (by decide) (by decide) (by decide) (by decide) (by decide)),
     (h c _ (mem_uc main_arg4 (by decide))).trans (W13_arg m c main_arg4 (by decide) (by decide) (by decide) (by decide) (by decide) (by decide) (by decide) (by decide) (by decide) (by decide) (by decide) (by decide) (by decide)),
     (h c _ (mem_uc main_arg5 (by decide))).trans (W13_arg m c main_arg5 (by decide) (by decide) (by decide) (by decide) (by decide) (by decide) (by decide) (by decide) (by decide) (by decide) (by decide) (by decide) (by decide)),
     (h c _ (mem_uc main_arg6 (by decide))).trans (W13_arg m c main_arg6 (by decide) (by decide) (by decide) (by decide) (by decide) (by decide) (by decide) (by decide) (by decide) (by decide) (by decide) (by decide) (by decide)),
     (h c _ (mem_uc main_arg7 (by decide))).trans (W13_arg m c main_arg7 (by decide) (by decide) (by decide) (by decide) (by decide) (by decide) (by decide) (by decide) (by decide) (by decide) (by decide) (by decide) (by decide)),
     (h c _ (mem_uc main_arg8 (by decide))).trans (W13_arg m c main_arg8 (by decide) (by decide) (by decide) (by decide) (by decide) (by decide) (by decide) (by decide) (by decide) (by decide) (by decide) (by decide) (by decide)),
     (h c _ (mem_uc main_arg9 (by decide))).trans (W13_arg m c main_arg9 (by decide) (by decide) (by decide) (by decide) (by decide) (by decide) (by decide) (by decide) (by decide) (by decide) (by decide) (by decide) (by decide))⟩)
    (run_main m ρ)

end Cert.Kernel.Hand

end
-- ==== Proof.KernelIdealLin0.lean ====
/-
  Region 0 of the kernel's program: the first layer's feature transform, one 2000-row block of the
  node features times the whole 128 x 128 weight matrix per grid point, 25 points.

  Everything is stated at a parameter `V`, the contents of the TensorCore's buffers when the region is
  entered, and for any float instance.  At a point `t` the body reads block `t` of the feature array
  (rows 2000 t … 2000 t + 1999) and the weight matrix, and stores their product, accumulated from zero,
  over the whole output block; the block is written back at every point.  So the proof data say: an
  input window's buffer holds its block, the output window's buffer holds the product of the two
  blocks, the invariant is the untouched scoped rest, nothing is owed.
-/
import proofs.«427342_j8916352106736_1_alg».proof.Proof.Gen.KernelIdeal.Launch
import proofs.«427342_j8916352106736_1_alg».proof.Proof.Gen.KernelIdeal.Skeleton
import proofs.«427342_j8916352106736_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds block `t` of the feature array at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weight matrix at every point: it is fetched once, and its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's whole-buffer rectangles. -/
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

/-- What the body leaves in the output window's buffer: its one store, the product of the two loaded
    blocks, over the whole block. -/
def out0_2 (x0 : Vec F S2000x128 .f32) (x1 : Vec F S128x128 .f32) : Vec F S2000x128 .f32 :=
  View.canon [⟨r0_x, k0_pay1 (View.ld x0 r0_x) (View.ld x1 r0_w)⟩]

/-- The one store covers the block. -/
theorem cover0_2 (p0 : Vec F S2000x128 .f32) (y : S2000x128.Idx) :
    ∃ pc ∈ ([⟨r0_x, p0⟩] : List (View.Piece (Elt F) S2000x128 .f32)), y ∈ pc.1.set :=
  View.cover_of_tiled [⟨r0_x, p0⟩] S2000x128.size (by rfl) y

set_option maxHeartbeats 1000000 in
/-- The body on whole buffers, the inputs' at `x0`, `x1` and the output's at anything: it ends with the
    inputs' as they were and the output's at `out0_2 x0 x1`. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealLin1.lean ====
/-
  Region 1 of the kernel's program: the second layer's feature transform, one 2000-row block of the
  previous layer's activations times the whole 128 x 128 weight matrix per grid point, 25 points.

  Everything is stated at a parameter `V`, the contents of the TensorCore's buffers when the region is
  entered, and for any float instance.  At a point `t` the body reads block `t` of the feature array
  (rows 2000 t … 2000 t + 1999) and the weight matrix, and stores their product, accumulated from zero,
  over the whole output block; the block is written back at every point.  So the proof data say: an
  input window's buffer holds its block, the output window's buffer holds the product of the two
  blocks, the invariant is the untouched scoped rest, nothing is owed.
-/
import proofs.«427342_j8916352106736_1_alg».proof.Proof.Gen.KernelIdeal.Launch
import proofs.«427342_j8916352106736_1_alg».proof.Proof.Gen.KernelIdeal.Skeleton
import proofs.«427342_j8916352106736_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current buffer holds block `t` of the feature array at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the weight matrix at every point: it is fetched once, and its
    block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's whole-buffer rectangles. -/
abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0

/-- What the body leaves in the output window's buffer: its one store, the product of the two loaded
    blocks, over the whole block. -/
def out1_2 (x0 : Vec F S2000x128 .f32) (x1 : Vec F S128x128 .f32) : Vec F S2000x128 .f32 :=
  View.canon [⟨r1_x, k1_pay1 (View.ld x0 r1_x) (View.ld x1 r1_w)⟩]

/-- The one store covers the block. -/
theorem cover1_2 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 1000000 in
/-- The body on whole buffers, the inputs' at `x0`, `x1` and the output's at anything: it ends with the
    inputs' as they were and the output's at `out1_2 x0 x1`. -/
theorem sound_kernel1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealLin2.lean ====
/-
  Region 2 of the kernel's program: the third layer's feature transform, one 2000-row block of the
  previous layer's activations times the whole 128 x 128 weight matrix per grid point, 25 points.

  Everything is stated at a parameter `V`, the contents of the TensorCore's buffers when the region is
  entered, and for any float instance.  At a point `t` the body reads block `t` of the feature array
  (rows 2000 t … 2000 t + 1999) and the weight matrix, and stores their product, accumulated from zero,
  over the whole output block; the block is written back at every point.  So the proof data say: an
  input window's buffer holds its block, the output window's buffer holds the product of the two
  blocks, the invariant is the untouched scoped rest, nothing is owed.
-/
import proofs.«427342_j8916352106736_1_alg».proof.Proof.Gen.KernelIdeal.Launch
import proofs.«427342_j8916352106736_1_alg».proof.Proof.Gen.KernelIdeal.Skeleton
import proofs.«427342_j8916352106736_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's current buffer holds block `t` of the feature array at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the weight matrix at every point: it is fetched once, and its
    block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's whole-buffer rectangles. -/
abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0

/-- What the body leaves in the output window's buffer: its one store, the product of the two loaded
    blocks, over the whole block. -/
def out2_2 (x0 : Vec F S2000x128 .f32) (x1 : Vec F S128x128 .f32) : Vec F S2000x128 .f32 :=
  View.canon [⟨r2_x, k2_pay1 (View.ld x0 r2_x) (View.ld x1 r2_w)⟩]

/-- The one store covers the block. -/
theorem cover2_2 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole buffers, the inputs' at `x0`, `x1` and the output's at anything: it ends with the
    inputs' as they were and the output's at `out2_2 x0 x1`. -/
theorem sound_kernel2 (c : Dev nD) (E : Set ℕ) (i : grid2.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealPool.lean ====
import proofs.«427342_j8916352106736_1_alg».proof.Proof.Gen.KernelIdeal.Launch
import proofs.«427342_j8916352106736_1_alg».proof.Proof.Gen.KernelIdeal.Skeleton
import proofs.«427342_j8916352106736_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

/-! # The pooling call: the accumulator point by point

The last call of the program computes `sums = onehotᵀ · h` for a one-hot matrix of 50000 × 64 and features of
50000 × 128, over a grid of 25 points. At point `t` the body reads rows `2000 t … 2000 t + 1999` of both
(a 2000 × 64 block and a 2000 × 128 block) and adds the product of the transposed one-hot block with the feature
block, rounded to bf16 on the way in and accumulated in f32, to a 64 × 128 accumulator. The accumulator lives in a
scratch buffer that is CARRIED from point to point:

* at the first point the body first fills it with zeros, so after point 0 it holds `0 + P₀`;
* after point `n + 1` it holds what point `n` left plus `P₍ₙ₊₁₎` (`acc3`, by recursion on the point);
* at the last point, and only there, the body copies it into the output window's buffer, which the pipeline writes
  back there and nowhere else; at every other point that window is idle and its buffer is handed back as found.

So the body has three cases — the first point, a middle point, the last point — and each is run once, on arbitrary
whole memrefs (`runA`, `runB`, `runC`). Everything is stated for any float instance `F` and at a parameter `V`,
the buffer contents when the region is entered. The region invariant `Phi3` is, before the first point, the
class's (every scoped buffer that is no staging buffer of this call at anything, the generator register at some
state), and after point `n` the same with the scratch at `acc3 n`. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the constant function. -/
theorem zeroOff : (![0, 0] : Fin 2 → Nat) = fun _ => 0 := funext fun a => by fin_cases a <;> rfl

/-- The first conditional of the body: the grid coordinate is 0. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional of the body: the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-- The whole-buffer rectangle of a 64x128 buffer. -/
abbrev rAcc : Rect S64x128 := Rect.unit (s := S64x128) ![0, 0] S64x128.size inb_S64x128_S64x128_0_0

/-! ## The body on any staging memrefs, case by case -/

/-- Every index of a 64x128 buffer lies in its whole-buffer rectangle: one such store covers the buffer. -/
theorem coverAcc (p : rAcc.shape.Idx → Elt F .f32) (L : List (View.Piece (Elt F) S64x128 .f32)) (y : S64x128.Idx) :
    ∃ pc ∈ ((⟨rAcc, p⟩ : View.Piece (Elt F) S64x128 .f32) :: L), y ∈ pc.1.set :=
  ⟨_, List.mem_cons_self, View.mem_set_unit_zero zeroOff inb_S64x128_S64x128_0_0 y⟩

set_option maxHeartbeats 1000000 in
/-- CASE A (the first point). The body zeroes the scratch, loads both input blocks, and stores into the scratch the
    zero fill plus the product of the transposed one-hot block with the feature block; the output buffer is not
    touched. -/
theorem runA (c : Dev nD) (i : grid3.Coords)
    (arg1 : Memref sig .tc .vmem S2000x64 .bf16) (harg1 : arg1.IsWhole)
    (arg2 : Memref sig .tc .vmem S2000x128 .f32) (harg2 : arg2.IsWhole)
    (arg3 : Memref sig .tc .vmem S64x128 .f32) (harg3 : arg3.IsWhole)
    (arg4 : Memref sig .tc .vmem S64x128 .f32) (harg4 : arg4.IsWhole)
    (hc0 : cond3_0 i) (hc1 : ¬cond3_1 i)
    (x0 : Vec F S2000x64 .bf16) (x1 : Vec F S2000x128 .f32) (xi2 : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ (∃ d, owns (c : Thread nD τ) arg4 fullShare d)
        ∗ (iprop(owns (c : Thread nD τ) arg1 fullShare x0 ∗ owns (c : Thread nD τ) arg2 fullShare x1
            ∗ owns (c : Thread nD τ) arg3 fullShare xi2
            ∗ owns (c : Thread nD τ) arg4 fullShare (k3_pay2 x0 x1 (k3_pay1 (F := F)))) -∗ K ⟨⟩))
      ⊢ wp frame (wpE (defs₀ (F := F)) Variants.none c none) E
          (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (coverAcc _ _)]
  rw [View.canon_cons_unit_zero (S := S64x128) zeroOff]
  simp only [View.readAt_eq_ld, harg1.read_unread, harg2.read_unread,
    View.ld_unit_zero (S := S2000x64) zeroOff, View.ld_unit_zero (S := S2000x128) zeroOff,
    View.readCov_unit_zero (S := S64x128) _ zeroOff]

set_option maxHeartbeats 1000000 in
/-- CASE B (a point that is neither the first nor the last). The scratch holds `xs`, what the point before left;
    the body loads both input blocks and stores into the scratch `xs` plus their product; the output buffer is
    not touched. -/
theorem runB (c : Dev nD) (i : grid3.Coords)
    (arg1 : Memref sig .tc .vmem S2000x64 .bf16) (harg1 : arg1.IsWhole)
    (arg2 : Memref sig .tc .vmem S2000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond3_0 i) (hc1 : ¬cond3_1 i)
    (x0 : Vec F S2000x64 .bf16) (x1 : Vec F S2000x128 .f32) (xi2 : Vec F S64x128 .f32) (xs : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xs
        ∗ (iprop(owns (c : Thread nD τ) arg1 fullShare x0 ∗ owns (c : Thread nD τ) arg2 fullShare x1
            ∗ owns (c : Thread nD τ) arg3 fullShare xi2
            ∗ owns (c : Thread nD τ) arg4 fullShare (k3_pay2 x0 x1 xs)) -∗ K ⟨⟩))
      ⊢ wp frame (wpE (defs₀ (F := F)) Variants.none c none) E
          (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (coverAcc _ _)]
  rw [View.canon_cons_unit_zero (S := S64x128) zeroOff]
  simp only [View.readAt_eq_ld, harg1.read_unread, harg2.read_unread, harg4.read_unread,
    View.ld_unit_zero (S := S2000x64) zeroOff, View.ld_unit_zero (S := S2000x128) zeroOff,
    View.ld_unit_zero (S := S64x128) zeroOff]

set_option maxHeartbeats 1000000 in
/-- CASE C (the last point). As case B, and then the body copies the scratch, at its new contents, into the output
    buffer, whatever that held. -/
theorem runC (c : Dev nD) (i : grid3.Coords)
    (arg1 : Memref sig .tc .vmem S2000x64 .bf16) (harg1 : arg1.IsWhole)
    (arg2 : Memref sig .tc .vmem S2000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond3_0 i) (hc1 : cond3_1 i)
    (x0 : Vec F S2000x64 .bf16) (x1 : Vec F S2000x128 .f32) (xs : Vec F S64x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs)
            ∗ owns (c : Thread nD τ) arg4 fullShare (k3_pay2 x0 x1 xs)) -∗ K ⟨⟩))
      ⊢ wp frame (wpE (defs₀ (F := F)) Variants.none c none) E
          (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (coverAcc _ _)]
    rw [View.canon_cons_unit_zero (S := S64x128) zeroOff]
    simp only [View.readAt_eq_ld, harg1.read_unread, harg2.read_unread, harg4.read_unread,
      View.ld_unit_zero (S := S2000x64) zeroOff, View.ld_unit_zero (S := S2000x128) zeroOff,
      View.ld_unit_zero (S := S64x128) zeroOff, View.readCov_unit_zero (S := S64x128) _ zeroOff]
  iexists _; isplitr
  swap; · iexact HS0
  ipureintro
  sl_unfold_words
  rw [View.read_writes_eq_canon _ _ _ (coverAcc _ _)]
  rw [View.canon_cons_unit_zero (S := S64x128) zeroOff]
  simp only [View.readAt_eq_ld, harg1.read_unread, harg2.read_unread, harg4.read_unread,
    View.ld_unit_zero (S := S2000x64) zeroOff, View.ld_unit_zero (S := S2000x128) zeroOff,
    View.ld_unit_zero (S := S64x128) zeroOff]

/-! ## Where the windows are idle -/

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Away from the last point the output window is idle: the body stores nothing into it, -/
theorem idleAt3_2 : ∀ t : Fin cfg3.N, ¬cond3_1 (grid3.coords t) → cfg3.idle 2 (grid3.coords t) = true := by decide +kernel
/-- and its block is not written back there. -/
theorem noFlush3_2 : ∀ t : Fin cfg3.N, ¬cond3_1 (grid3.coords t) → (cfg3.win 2).flush t = false := by decide +kernel
/-- At the last point the output window is live: the body stores into it. -/
theorem liveAt3_2 : ∀ t : Fin cfg3.N, cond3_1 (grid3.coords t) → cfg3.idle 2 (grid3.coords t) = false := by decide +kernel

/-! ## The region invariant's scoped buffers -/

/-- The scratch accumulator the body carries between points, as a whole memref. -/
abbrev scM3 : Memref sig .tc .vmem S64x128 .f32 := Memref.whole cc3_scratch0

/-- The core's scoped buffers that are neither a staging buffer of this call nor its scratch, each at some
    contents: the body touches none of them. -/
abbrev others3 (c : Dev nD) : sProp 𝕄 :=
  Pipeline.scopedRestBut (Ix := Unit) (Name := ℕ) (U := UR sig nD τ) (Lvl := ℕ) (Val := Elt F) spec3 c [cc3_scratch0]

/-- The class's invariant with the scratch split off as a memref owned at some contents. -/
theorem PhiA3_eq (c : Dev nD) :
    (Pipeline.ΦA spec3 c : sProp 𝕄)
      = iprop(iprop((∃ d, owns (c : Thread nD τ) scM3 fullShare d) ∗ others3 c) ∗ (∃ r, prngReg c r)) := by
  unfold Pipeline.ΦA
  rw [Pipeline.scopedRest_split_of_list spec3 c [cc3_scratch0] (by decide) (by decide)]
  simp only [bigSepL_singleton, scM3, owns_whole]; try rfl

section Region
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the scratch holds after each point -/

/-- THE ACCUMULATION. The scratch after the body at point `n`: after the first point the zero fill plus the
    product of point 0's transposed one-hot block with its feature block; after point `n + 1` what point `n`
    left plus the product of point `n + 1`'s blocks. -/
def acc3 (c : Dev nD) : (n : ℕ) → n < cfg3.N → Vec F S64x128 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (acc3 c n (Nat.lt_of_succ_lt hn))

theorem acc3_zero (c : Dev nD) (hn : 0 < cfg3.N) :
    acc3 V c 0 hn = k3_pay2 (iblk3 V c 0 ⟨0, hn⟩) (iblk3 V c 1 ⟨0, hn⟩) (k3_pay1 (F := F)) := rfl

theorem acc3_succ (c : Dev nD) (n : ℕ) (hn : n + 1 < cfg3.N) :
    acc3 V c (n + 1) hn = k3_pay2 (iblk3 V c 0 ⟨n + 1, hn⟩) (iblk3 V c 1 ⟨n + 1, hn⟩) (acc3 V c n (Nat.lt_of_succ_lt hn)) := rfl

/-- At the first point, stated at the point. -/
theorem acc3_first (c : Dev nD) (t : Fin cfg3.N) (h0 : t.val = 0) :
    acc3 V c t.val t.isLt = k3_pay2 (iblk3 V c 0 t) (iblk3 V c 1 t) (k3_pay1 (F := F)) := by
  obtain ⟨n, hn⟩ := t
  cases n with
  | zero => rfl
  | succ n => exact absurd h0 (Nat.succ_ne_zero n)

/-- At a later point, stated at the point: over what the point before left. -/
theorem acc3_later (c : Dev nD) (t : Fin cfg3.N) (h0 : t.val ≠ 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd rfl h0
  | succ n => rfl

/-- The region invariant before position `n`: before the first point the class's (every scoped buffer that is
    no staging buffer at anything, the generator register at some state); afterwards the same with the scratch
    at what the point before left in it. -/
def Phi3 (c : Dev nD) : (n : ℕ) → n ≤ cfg3.N → sProp 𝕄
  | 0, _ => Pipeline.ΦA spec3 c
  | n + 1, hn => iprop(iprop(owns (c : Thread nD τ) scM3 fullShare (acc3 V c n hn) ∗ others3 c) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn) ∗ others3 c) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega)) ∗ others3 c) ∗ (∃ r, prngReg c r)) := by
  cases n with
  | zero => exact absurd rfl hz
  | succ n => rfl

/-! ## The pipeline's proof data -/

/-- The proof data of the pool call on core `c`: the arrays as the region finds them (`V`); after the body at
    point `t` each input's buffer at its block and the output's at the scratch's contents after that point (it
    is stored, and written back, at the last point only); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl
theorem owed_eq3 (c : Dev nD) (t : Fin (cfg3.N + 1)) : (dat3 V c).owed t = 0 := rfl

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- Each window's current staging memref at point `t`, as the pipeline passes it to the body, and its wholeness. -/
abbrev ms3_0 (t : Fin cfg3.N) : Memref sig .tc .vmem S2000x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

/-- The input windows are live at every point: the body leaves each at its block. -/
theorem leaves3_0 (c : Dev nD) (t : Fin cfg3.N) :
    (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]

set_option maxHeartbeats 1600000 in
/-- The body at the first point: the invariant hands it the scratch at anything and takes it back at the first
    partial sum; the output window is idle. -/
theorem sound_body3_A (c : Dev nD) (t : Fin cfg3.N) (h0 : t.val = 0) :
    bodyPre3 V c t ⊢ wp frame (wpE (defs₀ (F := F)) Variants.none c none) Set.univ (bodyAt3 t) (fun _ => bodyPost3 V c t) := by
  have hN : t.val < 25 := lt_of_lt_of_eq t.isLt (show cfg3.N = 25 from N_3)
  have hc0 : cond3_0 (grid3.coords t) := (hcond3_0 t).mpr h0
  have hc1 : ¬cond3_1 (grid3.coords t) := fun h => by have := (hcond3_1 t).mp h; omega
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [leaves3_0, leaves3_1, Dat.leavesExact_idle (dat3 V c) 2 t (idleAt3_2 t hc1) (noFlush3_2 t hc1)]
  rw [acc3_first V c t h0]
  rw [Phi3_castSucc V c t, Phi3_zero V c _ _ h0, PhiA3_eq]
  iintro ⟨⟨⟨HS0, Hr⟩, Hg⟩, Ho, ⟨%d0, H0⟩, ⟨%d1, H1⟩, ⟨%d2, H2⟩⟩
  iapply (runA c (grid3.coords t) _ _ _ _ _ _ _ _ hc0 hc1 (iblk3 V c 0 t) (iblk3 V c 1 t) ((dat3 V c).before 2 t d2) Set.univ _)
  isplitl [H0]; · iexact H0
  isplitl [H1]; · iexact H1
  isplitl [H2]; · iexact H2
  isplitl [HS0]; · iexact HS0
  iintro ⟨H0, H1, H2, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  iexists _; iexact H2

set_option maxHeartbeats 1600000 in
/-- The body at a point that is neither the first nor the last: the scratch goes from what the point before left to
    that plus this point's product; the output window is idle. -/
theorem sound_body3_B (c : Dev nD) (t : Fin cfg3.N) (h0 : t.val ≠ 0) (h1 : t.val ≠ 24) :
    bodyPre3 V c t ⊢ wp frame (wpE (defs₀ (F := F)) Variants.none c none) Set.univ (bodyAt3 t) (fun _ => bodyPost3 V c t) := by
  have hc0 : ¬cond3_0 (grid3.coords t) := fun h => h0 ((hcond3_0 t).mp h)
  have hc1 : ¬cond3_1 (grid3.coords t) := fun h => h1 ((hcond3_1 t).mp h)
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [leaves3_0, leaves3_1, Dat.leavesExact_idle (dat3 V c) 2 t (idleAt3_2 t hc1) (noFlush3_2 t hc1)]
  rw [acc3_later V c t h0]
  rw [Phi3_castSucc V c t, Phi3_pos V c _ _ h0]
  iintro ⟨⟨⟨HS0, Hr⟩, Hg⟩, Ho, ⟨%d0, H0⟩, ⟨%d1, H1⟩, ⟨%d2, H2⟩⟩
  iapply (runB c (grid3.coords t) _ _ _ _ _ _ _ _ hc0 hc1 (iblk3 V c 0 t) (iblk3 V c 1 t) ((dat3 V c).before 2 t d2) _ Set.univ _)
  isplitl [H0]; · iexact H0
  isplitl [H1]; · iexact H1
  isplitl [H2]; · iexact H2
  isplitl [HS0]; · iexact HS0
  iintro ⟨H0, H1, H2, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  iexists _; iexact H2

set_option maxHeartbeats 1600000 in
/-- The body at the last point: as at the points before, and the output window, live here, is left at the scratch's
    final contents. -/
theorem sound_body3_C (c : Dev nD) (t : Fin cfg3.N) (h1 : t.val = 24) :
    bodyPre3 V c t ⊢ wp frame (wpE (defs₀ (F := F)) Variants.none c none) Set.univ (bodyAt3 t) (fun _ => bodyPost3 V c t) := by
  have h0 : t.val ≠ 0 := by omega
  have hc0 : ¬cond3_0 (grid3.coords t) := fun h => h0 ((hcond3_0 t).mp h)
  have hc1 : cond3_1 (grid3.coords t) := (hcond3_1 t).mpr h1
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [leaves3_0, leaves3_1]
  rw [show (dat3 V c).leavesExact 2 t = owns (c : Thread nD τ) (ms3_2 t) fullShare ((dat3 V c).after 2 t) from by
    unfold Dat.leavesExact; rw [liveAt3_2 t hc1], after3_2]
  rw [acc3_later V c t h0]
  rw [Phi3_castSucc V c t, Phi3_pos V c _ _ h0]
  iintro ⟨⟨⟨HS0, Hr⟩, Hg⟩, Ho, ⟨%d0, H0⟩, ⟨%d1, H1⟩, ⟨%d2, H2⟩⟩
  iapply (runC c (grid3.coords t) _ _ _ _ _ _ _ _ hc0 hc1 (iblk3 V c 0 t) (iblk3 V c 1 t) _ Set.univ _)
  isplitl [H0]; · iexact H0
  isplitl [H1]; · iexact H1
  isplitl [H2]; · iexists _; iexact H2
  isplitl [HS0]; · iexact HS0
  iintro ⟨H0, H1, H2, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  iexact H2

/-- The body at any point, by its three cases. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val = 0
  · exact sound_body3_A V c t h0
  · by_cases h1 : t.val = 24
    · exact sound_body3_C V c t h1
    · exact sound_body3_B V c t h0 h1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point the invariant gives the class's back: what the scratch holds is forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi3_out V c _ (by rw [Fin.val_last]; have : cfg3.N = 25 := N_3; omega)

end Region

end Cert.KernelIdeal.Hand

end
-- ==== Proof.KernelIdealRun.lean ====
/-
  The kernel's program from launch to return, as thirteen segments: nine stretches of host operations and the
  four kernel regions between them.

  The contents of the TensorCore's unscoped buffers are followed from boundary to boundary: a host stretch
  applies its operations in order; a region changes only its output array, which ends at what the region's
  write-backs leave in it (for the three feature transforms: block t of the output is the product of block t
  of the input and the weight matrix; for the pooling region: the one output block is what the scratch
  accumulator holds after the last point).  Every weakly fair execution then terminates without a fault, and
  every unscoped buffer ends at the last boundary's contents — in particular the arguments, which nothing
  writes, and the result.
-/
import proofs.«427342_j8916352106736_1_alg».proof.Proof.KernelIdealLin0
import proofs.«427342_j8916352106736_1_alg».proof.Proof.KernelIdealLin1
import proofs.«427342_j8916352106736_1_alg».proof.Proof.KernelIdealLin2
import proofs.«427342_j8916352106736_1_alg».proof.Proof.KernelIdealPool
import proofs.«427342_j8916352106736_1_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A boundary's contents read at the TensorCore's references: what a region's proof data take. -/
abbrev rd (W : Dev nD → Valuation τ sig (Elt F)) : (c : Dev nD) → (b : Ref sig .tc) → Buf (Elt F) ((c : Thread nD τ).loc b) :=
  fun c b => W c b

/-! ## The buffers' contents at each boundary -/

/-- At launch. -/
abbrev W0 : Dev nD → Valuation τ sig (Elt F) := fun c b => m (c, b)
/-- After the first three host stretches (the edge lists with self-loops, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)

/-- After region 0: as before it, except that `main_v32` holds what the region's write-backs leave. -/
def W4 (c : Dev nD) : Valuation τ sig (Elt F) :=
  Function.update (W3 m c) (Proc.devRef .tc main_v32) ((dat0 (rd (W3 m)) c).arrAt 2 cfg0.N)
theorem W4_out (c : Dev nD) : W4 m c (Proc.devRef .tc main_v32) = (dat0 (rd (W3 m)) c).arrAt 2 cfg0.N := by
  unfold W4; exact Function.update_self ..
theorem W4_of_ne (c : Dev nD) (b : Ref sig .tc) (hb : b ≠ main_v32) : W4 m c (Proc.devRef .tc b) = W3 m c (Proc.devRef .tc b) := by
  unfold W4; exact Function.update_of_ne (StableHlo.devRef_ne_of_ne hb) _ _
/-- Each array of the region holds at the exit what the pipeline leaves in it: the two inputs what they held, the
    output its write-backs. -/
theorem hF0 (c : Dev nD) : ∀ w : Fin cfg0.W, (dat0 (rd (W3 m)) c).arrAt w cfg0.N = rd (W4 m) c (Pipeline.arrRef spec0 w)
  | ⟨0, _⟩ => ((dat0 (rd (W3 m)) c).arrAt_in 0 rfl _).trans (((A_eq0 (rd (W3 m)) c 0)).trans (W4_of_ne m c main_arg0 (by decide)).symm)
  | ⟨1, _⟩ => ((dat0 (rd (W3 m)) c).arrAt_in 1 rfl _).trans (((A_eq0 (rd (W3 m)) c 1)).trans (W4_of_ne m c main_arg4 (by decide)).symm)
  | ⟨2, _⟩ => (W4_out m c).symm
/-- Every other buffer holds what it held at the entry. -/
theorem hrest0 (c : Dev nD) : ∀ b, b ∉ Finset.univ.image (Pipeline.arrRef spec0) → rd (W4 m) c b = rd (W3 m) c b :=
  fun b hb => W4_of_ne m c b fun e => hb (Finset.mem_image.mpr ⟨2, Finset.mem_univ _, e.symm⟩)

/-- After the first layer's message passing, bias and rectifier. -/
abbrev W5 : Dev nD → Valuation τ sig (Elt F) := fun c => StableHlo.after hostOps1 (W4 m c)
abbrev W6 : Dev nD → Valuation τ sig (Elt F) := fun c => StableHlo.after hostOps1_1 (W5 m c)

/-- After region 1: as before it, except that `main_v50` holds what the region's write-backs leave. -/
def W7 (c : Dev nD) : Valuation τ sig (Elt F) :=
  Function.update (W6 m c) (Proc.devRef .tc main_v50) ((dat1 (rd (W6 m)) c).arrAt 2 cfg1.N)
theorem W7_out (c : Dev nD) : W7 m c (Proc.devRef .tc main_v50) = (dat1 (rd (W6 m)) c).arrAt 2 cfg1.N := by
  unfold W7; exact Function.update_self ..
theorem W7_of_ne (c : Dev nD) (b : Ref sig .tc) (hb : b ≠ main_v50) : W7 m c (Proc.devRef .tc b) = W6 m c (Proc.devRef .tc b) := by
  unfold W7; exact Function.update_of_ne (StableHlo.devRef_ne_of_ne hb) _ _
/-- Each array of the region holds at the exit what the pipeline leaves in it: the two inputs what they held, the
    output its write-backs. -/
theorem hF1 (c : Dev nD) : ∀ w : Fin cfg1.W, (dat1 (rd (W6 m)) c).arrAt w cfg1.N = rd (W7 m) c (Pipeline.arrRef spec1 w)
  | ⟨0, _⟩ => ((dat1 (rd (W6 m)) c).arrAt_in 0 rfl _).trans (((A_eq1 (rd (W6 m)) c 0)).trans (W7_of_ne m c main_v49 (by decide)).symm)
  | ⟨1, _⟩ => ((dat1 (rd (W6 m)) c).arrAt_in 1 rfl _).trans (((A_eq1 (rd (W6 m)) c 1)).trans (W7_of_ne m c main_arg6 (by decide)).symm)
  | ⟨2, _⟩ => (W7_out m c).symm
/-- Every other buffer holds what it held at the entry. -/
theorem hrest1 (c : Dev nD) : ∀ b, b ∉ Finset.univ.image (Pipeline.arrRef spec1) → rd (W7 m) c b = rd (W6 m) c b :=
  fun b hb => W7_of_ne m c b fun e => hb (Finset.mem_image.mpr ⟨2, Finset.mem_univ _, e.symm⟩)

/-- After the second layer's message passing, bias and rectifier. -/
abbrev W8 : Dev nD → Valuation τ sig (Elt F) := fun c => StableHlo.after hostOps2 (W7 m c)
abbrev W9 : Dev nD → Valuation τ sig (Elt F) := fun c => StableHlo.after hostOps2_1 (W8 m c)

/-- After region 2: as before it, except that `main_v68` holds what the region's write-backs leave. -/
def W10 (c : Dev nD) : Valuation τ sig (Elt F) :=
  Function.update (W9 m c) (Proc.devRef .tc main_v68) ((dat2 (rd (W9 m)) c).arrAt 2 cfg2.N)
theorem W10_out (c : Dev nD) : W10 m c (Proc.devRef .tc main_v68) = (dat2 (rd (W9 m)) c).arrAt 2 cfg2.N := by
  unfold W10; exact Function.update_self ..
theorem W10_of_ne (c : Dev nD) (b : Ref sig .tc) (hb : b ≠ main_v68) : W10 m c (Proc.devRef .tc b) = W9 m c (Proc.devRef .tc b) := by
  unfold W10; exact Function.update_of_ne (StableHlo.devRef_ne_of_ne hb) _ _
/-- Each array of the region holds at the exit what the pipeline leaves in it: the two inputs what they held, the
    output its write-backs. -/
theorem hF2 (c : Dev nD) : ∀ w : Fin cfg2.W, (dat2 (rd (W9 m)) c).arrAt w cfg2.N = rd (W10 m) c (Pipeline.arrRef spec2 w)
  | ⟨0, _⟩ => ((dat2 (rd (W9 m)) c).arrAt_in 0 rfl _).trans (((A_eq2 (rd (W9 m)) c 0)).trans (W10_of_ne m c main_v67 (by decide)).symm)
  | ⟨1, _⟩ => ((dat2 (rd (W9 m)) c).arrAt_in 1 rfl _).trans (((A_eq2 (rd (W9 m)) c 1)).trans (W10_of_ne m c main_arg8 (by decide)).symm)
  | ⟨2, _⟩ => (W10_out m c).symm
/-- Every other buffer holds what it held at the entry. -/
theorem hrest2 (c : Dev nD) : ∀ b, b ∉ Finset.univ.image (Pipeline.arrRef spec2) → rd (W10 m) c b = rd (W9 m) c b :=
  fun b hb => W10_of_ne m c b fun e => hb (Finset.mem_image.mpr ⟨2, Finset.mem_univ _, e.symm⟩)

/-- After the third layer's message passing and bias, and the one-hot matrix of the graph labels. -/
abbrev W11 : Dev nD → Valuation τ sig (Elt F) := fun c => StableHlo.after hostOps3 (W10 m c)

/-- After region 3: as before it, except that `main_v92` holds what the region's write-backs leave. -/
def W12 (c : Dev nD) : Valuation τ sig (Elt F) :=
  Function.update (W11 m c) (Proc.devRef .tc main_v92) ((dat3 (rd (W11 m)) c).arrAt 2 cfg3.N)
theorem W12_out (c : Dev nD) : W12 m c (Proc.devRef .tc main_v92) = (dat3 (rd (W11 m)) c).arrAt 2 cfg3.N := by
  unfold W12; exact Function.update_self ..
theorem W12_of_ne (c : Dev nD) (b : Ref sig .tc) (hb : b ≠ main_v92) : W12 m c (Proc.devRef .tc b) = W11 m c (Proc.devRef .tc b) := by
  unfold W12; exact Function.update_of_ne (StableHlo.devRef_ne_of_ne hb) _ _
/-- Each array of the region holds at the exit what the pipeline leaves in it: the two inputs what they held, the
    output its write-backs. -/
theorem hF3 (c : Dev nD) : ∀ w : Fin cfg3.W, (dat3 (rd (W11 m)) c).arrAt w cfg3.N = rd (W12 m) c (Pipeline.arrRef spec3 w)
  | ⟨0, _⟩ => ((dat3 (rd (W11 m)) c).arrAt_in 0 rfl _).trans (((A_eq3 (rd (W11 m)) c 0)).trans (W12_of_ne m c main_v91 (by decide)).symm)
  | ⟨1, _⟩ => ((dat3 (rd (W11 m)) c).arrAt_in 1 rfl _).trans (((A_eq3 (rd (W11 m)) c 1)).trans (W12_of_ne m c main_v84 (by decide)).symm)
  | ⟨2, _⟩ => (W12_out m c).symm
/-- Every other buffer holds what it held at the entry. -/
theorem hrest3 (c : Dev nD) : ∀ b, b ∉ Finset.univ.image (Pipeline.arrRef spec3) → rd (W12 m) c b = rd (W11 m) c b :=
  fun b hb => W12_of_ne m c b fun e => hb (Finset.mem_image.mpr ⟨2, Finset.mem_univ _, e.symm⟩)

/-- After the counts and the division: the return. -/
abbrev W13 : Dev nD → Valuation τ sig (Elt F) := fun c => StableHlo.after hostOps4 (W12 m c)

/-! ## What each stretch leaves alone

A host stretch changes only the buffers its operations write; a region only its output array. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h
theorem W11_of (c : Dev nD) (r : Ref sig .tc) (h : r ∉ hostOps3_W) : W11 m c r = W10 m c r :=
  StableHlo.after_of_writes_sub hostOps3 _ hostOps3_writes h
theorem W13_of (c : Dev nD) (r : Ref sig .tc) (h : r ∉ hostOps4_W) : W13 m c r = W12 m c r :=
  StableHlo.after_of_writes_sub hostOps4 _ hostOps4_writes h

/-- An argument of the program ends as launched: no stretch and no region writes it. -/
theorem W13_arg (c : Dev nD) (r : Ref sig .tc)
    (h0 : r ∉ hostOps0_W) (h1 : r ∉ hostOps0_1_W) (h2 : r ∉ hostOps0_2_W) (h3 : r ≠ main_v32) (h4 : r ∉ hostOps1_W)
    (h5 : r ∉ hostOps1_1_W) (h6 : r ≠ main_v50) (h7 : r ∉ hostOps2_W) (h8 : r ∉ hostOps2_1_W) (h9 : r ≠ main_v68)
    (h10 : r ∉ hostOps3_W) (h11 : r ≠ main_v92) (h12 : r ∉ hostOps4_W) :
    W13 m c r = m ((c : Thread nD τ).loc r) :=
  (W13_of m c r h12).trans <| (W12_of_ne m c r h11).trans <| (W11_of m c r h10).trans <| (W10_of_ne m c r h9).trans <|
    (W9_of m c r h8).trans <| (W8_of m c r h7).trans <| (W7_of_ne m c r h6).trans <| (W6_of m c r h5).trans <|
    (W5_of m c r h4).trans <| (W4_of_ne m c r h3).trans <| (W3_of m c r h2).trans <| (W2_of m c r h1).trans <|
    (W1_of m c r h0).trans rfl

/-! ## The proof data family and the thread state -/

/-- No pallas_call has a prefetched table. -/
abbrev adm : (p : Fin 4) → (pcfgs (F := F) p).Adm := fun p => (cfgs p).toPCfg_adm
/-- Every region's proof data, each at its entry contents. -/
def pdats : (p : Fin 4) → (c : Dev nD) → Dat τ (Elt F) Unit ℕ (UR sig nD τ) ℕ (Pipeline.pin (pcfgs (F := F)) adm p) c
  | ⟨0, _⟩ => fun c => dat0 (rd (W3 m)) c
  | ⟨1, _⟩ => fun c => dat1 (rd (W6 m)) c
  | ⟨2, _⟩ => fun c => dat2 (rd (W9 m)) c
  | ⟨3, _⟩ => fun c => dat3 (rd (W11 m)) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The rest state ends owing nothing. -/
theorem R_owes (c : Dev nD) : (R c : sProp 𝕄) ⊢ iprop(∃ W, owes (c : Thread nD τ) (0 : CellTallies nD τ sig Unit) W) := by
  iintro ⟨-, HO⟩; iexact HO
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at `W3`, left with them at `W4`.  Its arrays
    are split out of the unscoped buffers on the way in and put back on the way out; the generator register goes
    into the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (rd (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W3 m) c) (rd (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W6`, left with them at `W7`.  Its arrays
    are split out of the unscoped buffers on the way in and put back on the way out; the generator register goes
    into the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (rd (W6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W6 m) c) (rd (W7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W9`, left with them at `W10`.  Its arrays
    are split out of the unscoped buffers on the way in and put back on the way out; the generator register goes
    into the region's invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W9 m)) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (rd (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W9 m) c) (rd (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W11`, left with them at `W12`.  Its arrays
    are split out of the unscoped buffers on the way in and put back on the way out; the generator register goes
    into the region's invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W11 m)) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (rd (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (rd (W11 m)) c)
    unfold Pipeline.ΦA
    iintro ⟨Hp, -, Hr⟩
    isplitl [Hr]; · iexact Hr
    iexact Hp
  hout c := by
    refine BIBase.Entails.trans (hout3 (rd (W11 m)) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W11 m) c) (rd (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)),
    .region (reg3 m),
    .host (hseg hostOps4 hostOps4_sub hostOps4_fresh (W12 m)) ]

set_option backward.isDefEq.respectTransparency.types false in
/-- Every weakly fair execution of the program from memory `m` with zero counters terminates without a fault, and
    in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W13 m c))
    (hch := fun c => ⟨.rfl, .rfl, .rfl, .rfl, .rfl, .rfl, .rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- The frame: every weakly fair execution terminates without a fault and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W13_arg m c main_arg0 (by decide) (by decide) (by decide) (by decide) (by decide) (by decide) (by decide) (by decide) (by decide) (by decide) (by decide) (by decide) (by decide)),
     (h c _ (mem_uc main_arg1 (by decide))).trans (W13_arg m c main_arg1 (by decide) (by decide) (by decide) (by decide) (by decide) (by decide) (by decide) (by decide) (by decide) (by decide) (by decide) (by decide) (by decide)),
     (h c _ (mem_uc main_arg2 (by decide))).trans (W13_arg m c main_arg2 (by decide) (by decide) (by decide) (by decide) (by decide) (by decide) (by decide) (by decide) (by decide) (by decide) (by decide) (by decide) (by decide)),
     (h c _ (mem_uc main_arg3 (by decide))).trans (W13_arg m c main_arg3 (by decide) (by decide) (by decide) (by decide) (by decide) (by decide) (by decide) (by decide) (by decide) (by decide) (by decide) (by decide) (by decide)),
     (h c _ (mem_uc main_arg4 (by decide))).trans (W13_arg m c main_arg4 (by decide) (by decide) (by decide) (by decide) (by decide) (by decide) (by decide) (by decide) (by decide) (by decide) (by decide) (by decide) (by decide)),
     (h c _ (mem_uc main_arg5 (by decide))).trans (W13_arg m c main_arg5 (by decide) (by decide) (by decide) (by decide) (by decide) (by decide) (by decide) (by decide) (by decide) (by decide) (by decide) (by decide) (by decide)),
     (h c _ (mem_uc main_arg6 (by decide))).trans (W13_arg m c main_arg6 (by decide) (by decide) (by decide) (by decide) (by decide) (by decide) (by decide) (by decide) (by decide) (by decide) (by decide) (by decide) (by decide)),
     (h c _ (mem_uc main_arg7 (by decide))).trans (W13_arg m c main_arg7 (by decide) (by decide) (by decide) (by decide) (by decide) (by decide) (by decide) (by decide) (by decide) (by decide) (by decide) (by decide) (by decide)),
     (h c _ (mem_uc main_arg8 (by decide))).trans (W13_arg m c main_arg8 (by decide) (by decide) (by decide) (by decide) (by decide) (by decide) (by decide) (by decide) (by decide) (by decide) (by decide) (by decide) (by decide)),
     (h c _ (mem_uc main_arg9 (by decide))).trans (W13_arg m c main_arg9 (by decide) (by decide) (by decide) (by decide) (by decide) (by decide) (by decide) (by decide) (by decide) (by decide) (by decide) (by decide) (by decide))⟩)
    (run_main m ρ)

end Cert.KernelIdeal.Hand

end
-- ==== Proof.RefValue.lean ====
/- The reference program's result, read stage by stage from its generated run. -/
import proofs.«427342_j8916352106736_1_alg».proof.Proof.Gen.ReferenceIdeal.Run
import proofs.«427342_j8916352106736_1_alg».proof.Proof.Gen.ReferenceIdeal.Read

noncomputable section

namespace Cert.ReferenceIdeal.RefValue

end Cert.ReferenceIdeal.RefValue

end
-- ==== Proof.LinPay.lean ====
/-
  The three feature transforms share one piece of mathematics: a block of 2000 rows times the whole
  128 x 128 weight matrix, accumulated from zero.  Here: the product of the whole 50000-row array with
  the weight matrix as ONE function of the two arrays (`linG`), and the body's payload of each of the
  three calls read at an index: entry (p, q) is the sum over k of x (p, k) * w (k, q).  At the ideal
  instance the narrowing to bf16 is the identity, and a shape cast to the same shape is the identity
  whatever the instance.
-/
import proofs.«427342_j8916352106736_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LinValue

open Cert.KernelIdeal Cert.KernelIdeal.Gen
open Idealize.ShloMosaic Idealize.ShloMosaic.TcCoe Idealize.SL.Sem

/-! ## The product as one whole-array function -/

/-- Row `i 0` of the left operand at column `k`. -/
abbrev lrow (i : S50000x128.Idx) (k : Fin 128) : S50000x128.Idx := fun a => match a with
  | ⟨0, _⟩ => ⟨(i 0).val, (i 0).isLt⟩
  | ⟨1, _⟩ => ⟨k.val, k.isLt⟩
/-- Column `i 1` of the right operand at row `k`. -/
abbrev rcol (i : S50000x128.Idx) (k : Fin 128) : S128x128.Idx := fun a => match a with
  | ⟨0, _⟩ => ⟨k.val, k.isLt⟩
  | ⟨1, _⟩ => ⟨(i 1).val, (i 1).isLt⟩

/-- `x @ w`: entry `i` is the sum over the 128 columns of `x`'s row times `w`'s column. -/
def linG (x : Vec Ideal S50000x128 .f32) (w : Vec Ideal S128x128 .f32) : Vec Ideal S50000x128 .f32 :=
  fun i => ∑ k : Fin 128, x (lrow i k) * w (rcol i k)

theorem linG_apply (x : Vec Ideal S50000x128 .f32) (w : Vec Ideal S128x128 .f32) (i : S50000x128.Idx) :
    linG x w i = ∑ k : Fin 128, x (lrow i k) * w (rcol i k) := rfl

/-! ## One block's product at an index -/

/-- The same two index functions inside a block of 2000 rows. -/
abbrev brow (j : S2000x128.Idx) (k : Fin 128) : S2000x128.Idx := fun a => match a with
  | ⟨0, _⟩ => ⟨(j 0).val, (j 0).isLt⟩
  | ⟨1, _⟩ => ⟨k.val, k.isLt⟩
abbrev bcol (j : S2000x128.Idx) (k : Fin 128) : S128x128.Idx := fun a => match a with
  | ⟨0, _⟩ => ⟨k.val, k.isLt⟩
  | ⟨1, _⟩ => ⟨(j 1).val, (j 1).isLt⟩

/-- The block product's operand indices, axis by axis: the left operand's row is the output's row, -/
theorem lhs_blk_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- its column the contraction index, -/
theorem lhs_blk_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- the right operand's row the contraction index, -/
theorem rhs_blk_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- and its column the output's column. -/
theorem rhs_blk_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times the weight matrix, accumulated from zero, at an index: the sum over the 128 columns,
    whatever formats the two operands are in. -/
theorem blk_matmul_apply {φ₁ φ₂ : FTy} (x : FVec Ideal S2000x128 φ₁) (w : FVec Ideal S128x128 φ₂) (j : S2000x128.Idx) :
    matmul (F := Ideal) dot_S2000x128_S128x128_S2000x128_1_0_0_1_n_n none x w (constant S2000x128 .f32 0x00000000#32) j
      = ∑ k : Fin 128, x (brow j k) * w (bcol j k) := by
  show FloatOps.matmul dot_S2000x128_S128x128_S2000x128_1_0_0_1_n_n none x w (constant S2000x128 .f32 0x00000000#32) j = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = brow j k := funext fun a => Fin.ext (by
    match a with
    | ⟨0, _⟩ => exact lhs_blk_0 _ _
    | ⟨1, _⟩ => exact (lhs_blk_1 _ _).trans hk)
  have er : dot_S2000x128_S128x128_S2000x128_1_0_0_1_n_n.rhsIdx j ((ValueIdx.contrEquiv1 dot_S2000x128_S128x128_S2000x128_1_0_0_1_n_n 128 rfl rfl).symm k) = bcol j k := funext fun a => Fin.ext (by
    match a with
    | ⟨0, _⟩ => exact (rhs_blk_0 _ _).trans hk
    | ⟨1, _⟩ => exact rhs_blk_1 _ _)
  rw [el, er]

/-! ## The three payloads -/

/-- The first call's payload at an index. -/
theorem k0_pay1_apply (x : Vec Ideal S2000x128 .f32) (w : Vec Ideal S128x128 .f32) (j : S2000x128.Idx) :
    k0_pay1 (F := Ideal) x w j = ∑ k : Fin 128, x (brow j k) * w (bcol j k) := by
  unfold k0_pay1
  exact blk_matmul_apply _ _ j

/-- The second call's payload at an index (its loaded block is first cast to its own shape). -/
theorem k1_pay1_apply (x : Vec Ideal S2000x128 .f32) (w : Vec Ideal S128x128 .f32) (j : S2000x128.Idx) :
    k1_pay1 (F := Ideal) x w j = ∑ k : Fin 128, x (brow j k) * w (bcol j k) := by
  unfold k1_pay1
  simp only [shapeCast_self]
  exact blk_matmul_apply _ _ j

/-- The third call's payload at an index (the same). -/
theorem k2_pay1_apply (x : Vec Ideal S2000x128 .f32) (w : Vec Ideal S128x128 .f32) (j : S2000x128.Idx) :
    k2_pay1 (F := Ideal) x w j = ∑ k : Fin 128, x (brow j k) * w (bcol j k) := by
  unfold k2_pay1
  simp only [shapeCast_self]
  exact blk_matmul_apply _ _ j

/-! ## A block's product inside the whole product -/

/-- If `x` is rows `2000 b …` of `X` and `w` is `W`, the block's sum at `j` is the whole product's entry at
    row `2000 b + j 0`, column `j 1`. -/
theorem blk_prod_eq (X : Vec Ideal S50000x128 .f32) (W : Vec Ideal S128x128 .f32)
    (x : Vec Ideal S2000x128 .f32) (w : Vec Ideal S128x128 .f32) (b : Nat)
    (hx : ∀ (y : S2000x128.Idx) (i : S50000x128.Idx), (i 0).val = b * 2000 + (y 0).val → (i 1).val = (y 1).val → x y = X i)
    (hw : ∀ y, w y = W y)
    (j : S2000x128.Idx) (i : S50000x128.Idx) (h0 : (i 0).val = b * 2000 + (j 0).val) (h1 : (i 1).val = (j 1).val) :
    ∑ k : Fin 128, x (brow j k) * w (bcol j k) = linG X W i := by
  rw [linG_apply]
  refine Finset.sum_congr rfl fun k _ => ?_
  have e : bcol j k = rcol i k := funext fun a => Fin.ext (by
    match a with
    | ⟨0, _⟩ => rfl
    | ⟨1, _⟩ => exact h1.symm)
  rw [hx (brow j k) (lrow i k) h0 rfl, hw, e]

end Cert.KernelIdeal.LinValue

end
-- ==== Proof.LinValue0.lean ====
/-
  Region 0's value at the ideal instance: after the 25 points the output array holds the product of
  the whole feature array with the weight matrix.  Point `t` writes back block `t` (rows 2000 t …
  2000 t + 1999) of that product, because its feature block is those rows and its weight block is the
  whole matrix; the 25 blocks cover the 50000 rows (row r is in block r / 2000).
-/
import proofs.«427342_j8916352106736_1_alg».proof.Proof.KernelIdealLin0
import proofs.«427342_j8916352106736_1_alg».proof.Proof.LinPay
import Idealize.ShloMosaic.Lib.Pipeline.Value

set_option maxRecDepth 16384

noncomputable section

namespace Cert.KernelIdeal.LinValue

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The printed index maps over the grid: at point `t` the feature block and the output block are both
    block `t` down the rows; the weight block never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed0_eq (c : Dev nD) (t : Fin cfg0.N) :
    (dat0 (F := Ideal) V c).flushed 2 t
      = ((cfg0.win 2).blk t).view.read (Elt Ideal) (linG (V c main_arg0) (V c main_arg4)) := by
  show (cfg0.win 2).cut (grid0.coords t) ((dat0 V c).after 2 t) = _
  rw [after0_2]
  unfold out0_2
  rw [View.canon_unit_zero zero_off0]
  simp only [View.ld_unit_zero (S := S2000x128) zero_off0, View.ld_unit_zero (S := S128x128) zero_off0]
  obtain ⟨e0, e1, e2, e3, e4, e5⟩ := idx_facts0 t
  funext j
  show k0_pay1 (F := Ideal) (iblk0 V c 0 t) (iblk0 V c 1 t) j
    = linG (V c main_arg0) (V c main_arg4) (((cfg0.win 2).blk t).view.emb j)
  refine (k0_pay1_apply _ _ j).trans (blk_prod_eq (V c main_arg0) (V c main_arg4) _ _ t.val ?_ ?_ j _ ?_ ?_)
  · intro y i h0 h1
    show V c main_arg0 (((cfg0.win 0).blk t).view.emb y) = V c main_arg0 i
    refine congrArg _ (funext fun a => Fin.ext ?_)
    match a with
    | ⟨0, _⟩ => show win0_0.index t (0 : Fin 2) * 2000 + 1 * (y 0).val = (i 0).val; omega
    | ⟨1, _⟩ => show win0_0.index t (1 : Fin 2) * 128 + 1 * (y 1).val = (i 1).val; omega
  · intro y
    show V c main_arg4 (((cfg0.win 1).blk t).view.emb y) = V c main_arg4 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 2000 + 1 * (j 0).val = t.val * 2000 + (j 0).val; omega
  · show win0_2.index t (1 : Fin 2) * 128 + 1 * (j 1).val = (j 1).val; omega

/-- An index of the output array is in point `t`'s block iff each coordinate is in the block's range. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Every index of the output array is in some point's block: row `r` in block `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, show (i 0).val / 2000 < grid0.N by rw [N_0]; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The output array after the region: the product of the feature array with the weight matrix. -/
theorem lin0_final (c : Dev nD) :
    (dat0 (F := Ideal) V c).arrAt 2 cfg0.N = linG (V c main_arg0) (V c main_arg4) :=
  (dat0 V c).arrAt_eq_of_cover 2 (linG (V c main_arg0) (V c main_arg4)) (fun t _ => flushed0_eq V c t) cover0

end Cert.KernelIdeal.LinValue

end
-- ==== Proof.LinValue1.lean ====
/-
  Region 1's value at the ideal instance: after the 25 points the output array holds the product of
  the whole array of the previous layer's activations with the weight matrix.  Point `t` writes back block `t` (rows 2000 t …
  2000 t + 1999) of that product, because its activation block is those rows and its weight block is the
  whole matrix; the 25 blocks cover the 50000 rows (row r is in block r / 2000).
-/
import proofs.«427342_j8916352106736_1_alg».proof.Proof.KernelIdealLin1
import proofs.«427342_j8916352106736_1_alg».proof.Proof.LinPay
import Idealize.ShloMosaic.Lib.Pipeline.Value

set_option maxRecDepth 16384

noncomputable section

namespace Cert.KernelIdeal.LinValue

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The printed index maps over the grid: at point `t` the activation block and the output block are both
    block `t` down the rows; the weight block never moves. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays as the region finds them. -/
theorem flushed1_eq (c : Dev nD) (t : Fin cfg1.N) :
    (dat1 (F := Ideal) V c).flushed 2 t
      = ((cfg1.win 2).blk t).view.read (Elt Ideal) (linG (V c main_v49) (V c main_arg6)) := by
  show (cfg1.win 2).cut (grid1.coords t) ((dat1 V c).after 2 t) = _
  rw [after1_2]
  unfold out1_2
  rw [View.canon_unit_zero zero_off1]
  simp only [View.ld_unit_zero (S := S2000x128) zero_off1, View.ld_unit_zero (S := S128x128) zero_off1]
  obtain ⟨e0, e1, e2, e3, e4, e5⟩ := idx_facts1 t
  funext j
  show k1_pay1 (F := Ideal) (iblk1 V c 0 t) (iblk1 V c 1 t) j
    = linG (V c main_v49) (V c main_arg6) (((cfg1.win 2).blk t).view.emb j)
  refine (k1_pay1_apply _ _ j).trans (blk_prod_eq (V c main_v49) (V c main_arg6) _ _ t.val ?_ ?_ j _ ?_ ?_)
  · intro y i h0 h1
    show V c main_v49 (((cfg1.win 0).blk t).view.emb y) = V c main_v49 i
    refine congrArg _ (funext fun a => Fin.ext ?_)
    match a with
    | ⟨0, _⟩ => show win1_0.index t (0 : Fin 2) * 2000 + 1 * (y 0).val = (i 0).val; omega
    | ⟨1, _⟩ => show win1_0.index t (1 : Fin 2) * 128 + 1 * (y 1).val = (i 1).val; omega
  · intro y
    show V c main_arg6 (((cfg1.win 1).blk t).view.emb y) = V c main_arg6 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · show win1_2.index t (0 : Fin 2) * 2000 + 1 * (j 0).val = t.val * 2000 + (j 0).val; omega
  · show win1_2.index t (1 : Fin 2) * 128 + 1 * (j 1).val = (j 1).val; omega

/-- An index of the output array is in point `t`'s block iff each coordinate is in the block's range. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v50).slice (win1_2.rect t)).set ↔ _
  rw [View.set_slice_whole, Rect.mem_set_unit]
  exact Iff.rfl

/-- Every index of the output array is in some point's block: row `r` in block `r / 2000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, show (i 0).val / 2000 < grid1.N by rw [N_1]; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

/-- The output array after the region: the product of the previous layer's activations with the weight matrix. -/
theorem lin1_final (c : Dev nD) :
    (dat1 (F := Ideal) V c).arrAt 2 cfg1.N = linG (V c main_v49) (V c main_arg6) :=
  (dat1 V c).arrAt_eq_of_cover 2 (linG (V c main_v49) (V c main_arg6)) (fun t _ => flushed1_eq V c t) cover1

end Cert.KernelIdeal.LinValue

end
-- ==== Proof.LinValue2.lean ====
/-
  Region 2's value at the ideal instance: after the 25 points the output array holds the product of
  the whole array of the previous layer's activations with the weight matrix.  Point `t` writes back block `t` (rows 2000 t …
  2000 t + 1999) of that product, because its activation block is those rows and its weight block is the
  whole matrix; the 25 blocks cover the 50000 rows (row r is in block r / 2000).
-/
import proofs.«427342_j8916352106736_1_alg».proof.Proof.KernelIdealLin2
import proofs.«427342_j8916352106736_1_alg».proof.Proof.LinPay
import Idealize.ShloMosaic.Lib.Pipeline.Value

set_option maxRecDepth 16384

noncomputable section

namespace Cert.KernelIdeal.LinValue

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the grid: at point `t` the activation block and the output block are both
    block `t` down the rows; the weight block never moves. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays as the region finds them. -/
theorem flushed2_eq (c : Dev nD) (t : Fin cfg2.N) :
    (dat2 (F := Ideal) V c).flushed 2 t
      = ((cfg2.win 2).blk t).view.read (Elt Ideal) (linG (V c main_v67) (V c main_arg8)) := by
  show (cfg2.win 2).cut (grid2.coords t) ((dat2 V c).after 2 t) = _
  rw [after2_2]
  unfold out2_2
  rw [View.canon_unit_zero zero_off2]
  simp only [View.ld_unit_zero (S := S2000x128) zero_off2, View.ld_unit_zero (S := S128x128) zero_off2]
  obtain ⟨e0, e1, e2, e3, e4, e5⟩ := idx_facts2 t
  funext j
  show k2_pay1 (F := Ideal) (iblk2 V c 0 t) (iblk2 V c 1 t) j
    = linG (V c main_v67) (V c main_arg8) (((cfg2.win 2).blk t).view.emb j)
  refine (k2_pay1_apply _ _ j).trans (blk_prod_eq (V c main_v67) (V c main_arg8) _ _ t.val ?_ ?_ j _ ?_ ?_)
  · intro y i h0 h1
    show V c main_v67 (((cfg2.win 0).blk t).view.emb y) = V c main_v67 i
    refine congrArg _ (funext fun a => Fin.ext ?_)
    match a with
    | ⟨0, _⟩ => show win2_0.index t (0 : Fin 2) * 2000 + 1 * (y 0).val = (i 0).val; omega
    | ⟨1, _⟩ => show win2_0.index t (1 : Fin 2) * 128 + 1 * (y 1).val = (i 1).val; omega
  · intro y
    show V c main_arg8 (((cfg2.win 1).blk t).view.emb y) = V c main_arg8 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 2000 + 1 * (j 0).val = t.val * 2000 + (j 0).val; omega
  · show win2_2.index t (1 : Fin 2) * 128 + 1 * (j 1).val = (j 1).val; omega

/-- An index of the output array is in point `t`'s block iff each coordinate is in the block's range. -/
theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v68).slice (win2_2.rect t)).set ↔ _
  rw [View.set_slice_whole, Rect.mem_set_unit]
  exact Iff.rfl

/-- Every index of the output array is in some point's block: row `r` in block `r / 2000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, show (i 0).val / 2000 < grid2.N by rw [N_2]; omega⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- The output array after the region: the product of the previous layer's activations with the weight matrix. -/
theorem lin2_final (c : Dev nD) :
    (dat2 (F := Ideal) V c).arrAt 2 cfg2.N = linG (V c main_v67) (V c main_arg8) :=
  (dat2 V c).arrAt_eq_of_cover 2 (linG (V c main_v67) (V c main_arg8)) (fun t _ => flushed2_eq V c t) cover2

end Cert.KernelIdeal.LinValue

end
-- ==== Proof.PoolMath.lean ====
/- The value mathematics of the pooling step at the ideal instance (floats are extended reals, every
   operation exact): one grid point's payload read at an index, the 25-fold accumulation as one sum over
   all nodes, the one-hot membership matrix read at an index, and the agreement of the pooled sums and
   the counts with the reference's scatter-adds. -/
import proofs.«427342_j8916352106736_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option synthInstance.maxSize 4096

noncomputable section

namespace Cert.PoolMath

open Idealize.ShloMosaic Idealize.ShloMosaic.ValueIdx
open Cert.KernelIdeal Cert.KernelIdeal.Gen
open scoped BigOperators

/-! ## One grid point: the payload at an index -/

/-- The pooled accumulator starts as the zero matrix. -/
theorem pay1_apply (i : S64x128.Idx) : k3_pay1 (F := Ideal) i = 0 := by
  unfold k3_pay1
  rw [shapeCast_self]
  show Ideal.ofBits .f32 0x00000000#32 = 0
  exact Ideal.ofBits_zero_f32

/-- The left operand's row coordinate is the output's row. -/
theorem lhs_pool_0 (i : S64x128.Idx) (q : dot_S64x2000_S2000x128_S64x128_1_0_0_1_n_n.contr.Idx) :
    (dot_S64x2000_S2000x128_S64x128_1_0_0_1_n_n.lhsIdx i q 0).val = (i 0).val := by
  unfold DotDims.lhsIdx
  rw [dif_neg (show ¬(0 : Fin S64x2000.rank) ∈ dot_S64x2000_S2000x128_S64x128_1_0_0_1_n_n.lhsBatch by decide), dif_pos (show (0 : Fin S64x2000.rank) ∈ dot_S64x2000_S2000x128_S64x128_1_0_0_1_n_n.lhsNonContracting by decide)]
  rfl
/-- The left operand's column coordinate is the contraction coordinate. -/
theorem lhs_pool_1 (i : S64x128.Idx) (q : dot_S64x2000_S2000x128_S64x128_1_0_0_1_n_n.contr.Idx) :
    (dot_S64x2000_S2000x128_S64x128_1_0_0_1_n_n.lhsIdx i q 1).val = (q ⟨0, by decide⟩).val :=
  dot_S64x2000_S2000x128_S64x128_1_0_0_1_n_n.lhsIdx_val_of_single rfl i q
/-- The right operand's row coordinate is the contraction coordinate. -/
theorem rhs_pool_0 (i : S64x128.Idx) (q : dot_S64x2000_S2000x128_S64x128_1_0_0_1_n_n.contr.Idx) :
    (dot_S64x2000_S2000x128_S64x128_1_0_0_1_n_n.rhsIdx i q 0).val = (q ⟨0, by decide⟩).val :=
  dot_S64x2000_S2000x128_S64x128_1_0_0_1_n_n.rhsIdx_val_of_single rfl i q
/-- The right operand's column coordinate is the output's column. -/
theorem rhs_pool_1 (i : S64x128.Idx) (q : dot_S64x2000_S2000x128_S64x128_1_0_0_1_n_n.contr.Idx) :
    (dot_S64x2000_S2000x128_S64x128_1_0_0_1_n_n.rhsIdx i q 1).val = (i 1).val := by
  unfold DotDims.rhsIdx
  rw [dif_neg (show ¬(1 : Fin S2000x128.rank) ∈ dot_S64x2000_S2000x128_S64x128_1_0_0_1_n_n.rhsBatch by decide), dif_pos (show (1 : Fin S2000x128.rank) ∈ dot_S64x2000_S2000x128_S64x128_1_0_0_1_n_n.rhsNonContracting by decide)]
  rfl

/-- One grid point adds, to the accumulator at (g, d), the product of the transposed one-hot block's
    row g with column d of the feature block: the sum over the block's 2000 nodes. -/
theorem pay2_apply (v3 : Vec Ideal S2000x64 .bf16) (v5 : Vec Ideal S2000x128 .f32) (v8 : Vec Ideal S64x128 .f32)
    (g : Fin 64) (d : Fin 128) :
    k3_pay2 (F := Ideal) v3 v5 v8 (ix2 g d) = v8 (ix2 g d) + ∑ k : Fin 2000, v3 (ix2 k g) * v5 (ix2 k d) := by
  unfold k3_pay2
  rw [shapeCast_self, addf_apply]
  simp only [matmul]
  rw [Ideal.matmul_constant_zero_apply, ← Equiv.sum_comp (contrEquiv1 dot_S64x2000_S2000x128_S64x128_1_0_0_1_n_n 2000 rfl rfl).symm]
  refine congrArg (v8 (ix2 g d) + ·) (Finset.sum_congr rfl fun k _ => ?_)
  have hk := contrEquiv1_symm_val dot_S64x2000_S2000x128_S64x128_1_0_0_1_n_n 2000 rfl rfl k
  have el : dot_S64x2000_S2000x128_S64x128_1_0_0_1_n_n.lhsIdx (ix2 g d) ((contrEquiv1 dot_S64x2000_S2000x128_S64x128_1_0_0_1_n_n 2000 rfl rfl).symm k) = ix2 g k := funext fun a => Fin.ext (by
    match a with
    | ⟨0, _⟩ => exact lhs_pool_0 _ _
    | ⟨1, _⟩ => exact (lhs_pool_1 _ _).trans hk)
  have er : dot_S64x2000_S2000x128_S64x128_1_0_0_1_n_n.rhsIdx (ix2 g d) ((contrEquiv1 dot_S64x2000_S2000x128_S64x128_1_0_0_1_n_n 2000 rfl rfl).symm k) = ix2 k d := funext fun a => Fin.ext (by
    match a with
    | ⟨0, _⟩ => exact (rhs_pool_0 _ _).trans hk
    | ⟨1, _⟩ => exact rhs_pool_1 _ _)
  rw [el, er, transpose_ix2_apply, shapeCast_self, truncf_apply, shapeCast_self]

/-! ## Twenty-five grid points: the accumulation as one sum -/

/-- The accumulation over consecutive grid points, from the zero matrix: after point n the accumulator
    at (g, d) is the sum, over the points 0 … n and over each point's 2000 nodes, of the one-hot block's
    entry times the feature block's entry. The blocks and the accumulator states are any families indexed
    by the naturals; the recursion is asked only below N. -/
theorem acc_apply (oh : ℕ → Vec Ideal S2000x64 .bf16) (hb : ℕ → Vec Ideal S2000x128 .f32)
    (a : ℕ → FVec Ideal S64x128 .f32) (N : ℕ)
    (h0 : ∀ (g : Fin 64) (d : Fin 128), a 0 (ix2 g d) = k3_pay2 (F := Ideal) (oh 0) (hb 0) (k3_pay1 (F := Ideal)) (ix2 g d))
    (hs : ∀ n, n < N → ∀ (g : Fin 64) (d : Fin 128),
      a (n + 1) (ix2 g d) = k3_pay2 (F := Ideal) (oh (n + 1)) (hb (n + 1)) (a n) (ix2 g d))
    (g : Fin 64) (d : Fin 128) :
    ∀ n, n ≤ N → a n (ix2 g d) = ∑ t ∈ Finset.range (n + 1), ∑ k : Fin 2000, oh t (ix2 k g) * hb t (ix2 k d)
  | 0, _ => by rw [h0, pay2_apply, pay1_apply, zero_add, Finset.sum_range_one]
  | n + 1, hn => by
    rw [hs n (by omega), pay2_apply, acc_apply oh hb a N h0 hs g d n (by omega), Finset.sum_range_succ _ (n + 1)]

/-- A family over the 25 grid points read at any natural (its value at point 0 past the grid). -/
def ext25 {α : Type} (f : Fin 25 → α) (n : ℕ) : α := if h : n < 25 then f ⟨n, h⟩ else f 0
theorem ext25_of_lt {α : Type} (f : Fin 25 → α) (n : ℕ) (h : n < 25) : ext25 f n = f ⟨n, h⟩ := dif_pos h

/-- The same for families over the 25 grid points: after the last point the accumulator is the double sum
    over all points and all nodes of a point's block. -/
theorem acc25_apply (oh : Fin 25 → Vec Ideal S2000x64 .bf16) (hb : Fin 25 → Vec Ideal S2000x128 .f32)
    (a : Fin 25 → FVec Ideal S64x128 .f32)
    (h0 : ∀ (g : Fin 64) (d : Fin 128), a 0 (ix2 g d) = k3_pay2 (F := Ideal) (oh 0) (hb 0) (k3_pay1 (F := Ideal)) (ix2 g d))
    (hs : ∀ (n : ℕ) (h : n + 1 < 25) (g : Fin 64) (d : Fin 128),
      a ⟨n + 1, h⟩ (ix2 g d) = k3_pay2 (F := Ideal) (oh ⟨n + 1, h⟩) (hb ⟨n + 1, h⟩) (a ⟨n, Nat.lt_of_succ_lt h⟩) (ix2 g d))
    (g : Fin 64) (d : Fin 128) :
    a 24 (ix2 g d) = ∑ t : Fin 25, ∑ k : Fin 2000, oh t (ix2 k g) * hb t (ix2 k d) := by
  have key : ext25 a 24 (ix2 g d)
      = ∑ t ∈ Finset.range 25, ∑ k : Fin 2000, ext25 oh t (ix2 k g) * ext25 hb t (ix2 k d) :=
    acc_apply (ext25 oh) (ext25 hb) (ext25 a) 24
      (fun g d => by
        rw [ext25_of_lt a 0 (by omega), ext25_of_lt oh 0 (by omega), ext25_of_lt hb 0 (by omega)]
        exact h0 g d)
      (fun n hn g d => by
        rw [ext25_of_lt a (n + 1) (by omega), ext25_of_lt oh (n + 1) (by omega), ext25_of_lt hb (n + 1) (by omega),
          ext25_of_lt a n (by omega)]
        exact hs n (by omega) g d)
      g d 24 le_rfl
  rw [ext25_of_lt a 24 (by omega)] at key
  refine key.trans ?_
  rw [Finset.sum_range]
  refine Finset.sum_congr rfl fun t _ => ?_
  rw [ext25_of_lt oh t t.isLt, ext25_of_lt hb t t.isLt]

/-- A sum over the 50000 nodes is the sum over the 25 blocks of the sums over a block's 2000 nodes:
    node n is node n % 2000 of block n / 2000. -/
theorem sum_blocks (f : Fin 50000 → EReal) :
    ∑ n : Fin 50000, f n
      = ∑ t : Fin 25, ∑ k : Fin 2000, f ⟨2000 * t.val + k.val, by have := t.isLt; have := k.isLt; omega⟩ :=
  calc ∑ n : Fin 50000, f n
      = ∑ p : Fin 25 × Fin 2000, f (finProdFinEquiv p) :=
        (Equiv.sum_comp (finProdFinEquiv (m := 25) (n := 2000)) f).symm
    _ = ∑ t : Fin 25, ∑ k : Fin 2000, f (finProdFinEquiv (t, k)) := Fintype.sum_prod_type _
    _ = _ := Finset.sum_congr rfl fun t _ => Finset.sum_congr rfl fun k _ => congrArg f (Fin.ext (by
          show k.val + 2000 * t.val = 2000 * t.val + k.val
          omega))

/-- When block t's row k is row 2000·t + k of a whole array, for the one-hot matrix and for the
    features, the double sum over blocks and their nodes is the sum over all nodes. -/
theorem blocks_eq (oh : Fin 25 → Vec Ideal S2000x64 .bf16) (hb : Fin 25 → Vec Ideal S2000x128 .f32)
    (OH : Vec Ideal S50000x64 .bf16) (H : Vec Ideal S50000x128 .f32)
    (hOH : ∀ (t : Fin 25) (k : Fin 2000) (n : Fin 50000) (g : Fin 64), n.val = 2000 * t.val + k.val →
      oh t (ix2 k g) = OH (ix2 n g))
    (hH : ∀ (t : Fin 25) (k : Fin 2000) (n : Fin 50000) (d : Fin 128), n.val = 2000 * t.val + k.val →
      hb t (ix2 k d) = H (ix2 n d))
    (g : Fin 64) (d : Fin 128) :
    ∑ t : Fin 25, ∑ k : Fin 2000, oh t (ix2 k g) * hb t (ix2 k d) = ∑ n : Fin 50000, OH (ix2 n g) * H (ix2 n d) := by
  refine Eq.trans ?_ (sum_blocks (fun n => OH (ix2 n g) * H (ix2 n d))).symm
  refine Finset.sum_congr rfl fun t _ => Finset.sum_congr rfl fun k _ => ?_
  rw [hOH t k ⟨2000 * t.val + k.val, by have := t.isLt; have := k.isLt; omega⟩ g rfl,
    hH t k ⟨2000 * t.val + k.val, by have := t.isLt; have := k.isLt; omega⟩ d rfl]

/-- The pooled sums after the last grid point: at (g, d), the sum over all nodes of the one-hot
    entry times the feature. -/
theorem pool_closed (oh : Fin 25 → Vec Ideal S2000x64 .bf16) (hb : Fin 25 → Vec Ideal S2000x128 .f32)
    (a : Fin 25 → FVec Ideal S64x128 .f32)
    (OH : Vec Ideal S50000x64 .bf16) (H : Vec Ideal S50000x128 .f32)
    (h0 : ∀ (g : Fin 64) (d : Fin 128), a 0 (ix2 g d) = k3_pay2 (F := Ideal) (oh 0) (hb 0) (k3_pay1 (F := Ideal)) (ix2 g d))
    (hs : ∀ (n : ℕ) (h : n + 1 < 25) (g : Fin 64) (d : Fin 128),
      a ⟨n + 1, h⟩ (ix2 g d) = k3_pay2 (F := Ideal) (oh ⟨n + 1, h⟩) (hb ⟨n + 1, h⟩) (a ⟨n, Nat.lt_of_succ_lt h⟩) (ix2 g d))
    (hOH : ∀ (t : Fin 25) (k : Fin 2000) (n : Fin 50000) (g : Fin 64), n.val = 2000 * t.val + k.val →
      oh t (ix2 k g) = OH (ix2 n g))
    (hH : ∀ (t : Fin 25) (k : Fin 2000) (n : Fin 50000) (d : Fin 128), n.val = 2000 * t.val + k.val →
      hb t (ix2 k d) = H (ix2 n d))
    (g : Fin 64) (d : Fin 128) :
    a 24 (ix2 g d) = ∑ n : Fin 50000, OH (ix2 n g) * H (ix2 n d) :=
  (acc25_apply oh hb a h0 hs g d).trans (blocks_eq oh hb OH H hOH hH g d)

end Cert.PoolMath

end
-- ==== Proof.PoolValue.lean ====
import proofs.«427342_j8916352106736_1_alg».proof.Proof.KernelIdealPool
import proofs.«427342_j8916352106736_1_alg».proof.Proof.PoolMath
import Idealize.ShloMosaic.Lib.Pipeline.Value
import Idealize.ShloMosaic.Lib.ValueIdx

set_option maxRecDepth 16384

/-! # The pooling call at the ideal instance: the result array, index by index

The output window of the pooling call has one block, the whole 64 × 128 array, and it is written back at the last
grid point only. So after the region the array holds what the accumulator held after point 24. Over the extended
reals the 25 partial products add up, in any order, to one sum over all 50000 nodes: entry `(g, d)` is
`∑ₙ onehot[n, g] · h[n, d]`, where block `t` of either input is its rows `2000 t … 2000 t + 1999`. -/

noncomputable section

namespace Cert.KernelIdeal.PoolValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The grid has 25 points. -/
theorem N25 : cfg3.N = 25 := N_3

/-- A point of the grid from a number below 25. -/
abbrev pt (n : ℕ) (h : n < 25) : Fin cfg3.N := ⟨n, lt_of_lt_of_eq h N25.symm⟩

/-- The last point. -/
abbrev tLast : Fin cfg3.N := pt 24 (by omega)

/-- The accumulator after the last point, as contents of the result array (its one block is the array). -/
abbrev result (c : Dev nD) : Buf (Elt Ideal) ((c : Thread nD τ).loc main_v92) := acc3 V c 24 tLast.isLt

/-- The one write-back, at the last point, writes it: block (0, 0) of the 64 × 128 array read through zero offsets
    is the array. -/
theorem flushed_eq (c : Dev nD) (t : Fin cfg3.N) (hf : (cfg3.win 2).flush t = true) :
    (dat3 V c).flushed 2 t = ((cfg3.win 2).blk t).view.read (Elt Ideal) (result V c) := by
  have hN : cfg3.N = 25 := N25
  have h24 : t.val = 24 := by have := (flush3_2 t).mp hf; have := t.isLt; omega
  obtain rfl : t = tLast := Fin.ext h24
  show (cfg3.win 2).cut (grid3.coords tLast) ((dat3 V c).after 2 tLast) = _
  rw [after3_2]
  have hz' : (fun a => win3_2.index tLast a * main_v92.ty.shape.size a) = fun _ => 0 := funext fun a => by fin_cases a <;> decide
  exact (Memref.read_access_unit_zero (Elt Ideal) main_v92 hz' (fun a => by rw [congrFun hz' a]; simp) (result V c)).symm

/-- So the result array ends holding the accumulator after the last point: that point's block covers it. -/
theorem final (c : Dev nD) : (dat3 V c).arrAt 2 cfg3.N = result V c :=
  (dat3 V c).arrAt_eq_of_cover 2 (result V c) (flushed_eq V c) fun i =>
    ⟨tLast, (flush3_2 tLast).mpr rfl, by
      show i ∈ ((View.whole main_v92).slice (win3_2.rect tLast)).set
      rw [View.set_slice_whole, Rect.mem_set_unit]
      intro a
      have h0 : (i 0 : Nat) < 64 := (i 0).isLt
      have h1 : (i 1 : Nat) < 128 := (i 1).isLt
      match a with
      | ⟨0, _⟩ => show win3_2.index tLast 0 * win3_2.size 0 ≤ (i 0 : Nat) ∧ (i 0 : Nat) < win3_2.index tLast 0 * win3_2.size 0 + win3_2.xsize (grid3.coords tLast) 0
                  rw [show win3_2.index tLast 0 * win3_2.size 0 = 0 from by decide +kernel, show win3_2.xsize (grid3.coords tLast) 0 = 64 from by decide +kernel]; omega
      | ⟨1, _⟩ => show win3_2.index tLast 1 * win3_2.size 1 ≤ (i 1 : Nat) ∧ (i 1 : Nat) < win3_2.index tLast 1 * win3_2.size 1 + win3_2.xsize (grid3.coords tLast) 1
                  rw [show win3_2.index tLast 1 * win3_2.size 1 = 0 from by decide +kernel, show win3_2.xsize (grid3.coords tLast) 1 = 128 from by decide +kernel]; omega⟩

/-- The input windows' index maps, decided over the grid: at point `t` both read row block `t`, column block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row `k` of the one-hot block of point `t` is row `2000 t + k` of the one-hot matrix. -/
theorem oh_row (c : Dev nD) (t : Fin cfg3.N) (k : Fin 2000) (n : Fin 50000) (g : Fin 64) (hn : n.val = 2000 * t.val + k.val) :
    (iblk3 V c 0 t : Vec Ideal S2000x64 .bf16) (ix2 k g) = (V c main_v91 : Vec Ideal S50000x64 .bf16) (ix2 n g) := by
  obtain ⟨e0, e1, -, -⟩ := idx_facts t
  unfold iblk3
  rw [View.read_apply]
  show V c main_v91 _ = V c main_v91 _
  congr 1
  funext a
  apply Fin.ext
  match a with
  | ⟨0, _⟩ => show win3_0.index t (0 : Fin 2) * 2000 + 1 * k.val = n.val; omega
  | ⟨1, _⟩ => show win3_0.index t (1 : Fin 2) * 64 + 1 * g.val = g.val; omega

/-- Row `k` of the feature block of point `t` is row `2000 t + k` of the features. -/
theorem h_row (c : Dev nD) (t : Fin cfg3.N) (k : Fin 2000) (n : Fin 50000) (d : Fin 128) (hn : n.val = 2000 * t.val + k.val) :
    (iblk3 V c 1 t : Vec Ideal S2000x128 .f32) (ix2 k d) = (V c main_v84 : Vec Ideal S50000x128 .f32) (ix2 n d) := by
  obtain ⟨-, -, e0, e1⟩ := idx_facts t
  unfold iblk3
  rw [View.read_apply]
  show V c main_v84 _ = V c main_v84 _
  congr 1
  funext a
  apply Fin.ext
  match a with
  | ⟨0, _⟩ => show win3_1.index t (0 : Fin 2) * 2000 + 1 * k.val = n.val; omega
  | ⟨1, _⟩ => show win3_1.index t (1 : Fin 2) * 128 + 1 * d.val = d.val; omega

/-- The one-hot matrix, the features and the result array as the region finds and leaves them, at their shapes. -/
abbrev onehot (c : Dev nD) : Vec Ideal S50000x64 .bf16 := V c main_v91
abbrev feats (c : Dev nD) : Vec Ideal S50000x128 .f32 := V c main_v84
abbrev pooled (c : Dev nD) : Vec Ideal S64x128 .f32 := (dat3 (F := Ideal) V c).arrAt 2 cfg3.N

/-- THE POOLED SUMS: after the region, entry `(g, d)` of the result array is the sum over all nodes of the one-hot
    entry times the feature. -/
theorem pool_final (c : Dev nD) (g : Fin 64) (d : Fin 128) :
    pooled V c (ix2 g d) = ∑ n : Fin 50000, onehot V c (ix2 n g) * feats V c (ix2 n d) := by
  show (dat3 (F := Ideal) V c).arrAt 2 cfg3.N (ix2 g d) = _
  rw [final]
  exact Cert.PoolMath.pool_closed
    (fun t => iblk3 V c 0 (pt t.val t.isLt)) (fun t => iblk3 V c 1 (pt t.val t.isLt))
    (fun t => acc3 V c t.val (pt t.val t.isLt).isLt)
    (onehot V c) (feats V c)
    (fun g d => congrFun (acc3_zero V c _) _)
    (fun n h g d => congrFun (acc3_succ V c n _) _)
    (fun t k n g hn => oh_row V c _ k n g hn)
    (fun t k n d hn => h_row V c _ k n d hn)
    g d

end Cert.KernelIdeal.PoolValue

end
-- ==== Proof.RefShare.lean ====
/- The reference recomputes, in each of its three layers, the edge lists with the self loops appended and
   the symmetric normalisation of the edge weights: the same operations on the same arguments, so the
   recomputed stages are the first layer's. Its three feature transforms are one function of the features
   and the weights: entry (p, q) is the sum over k of x (p, k) * w (k, q). -/
import proofs.«427342_j8916352106736_1_alg».proof.Proof.Gen.ReferenceIdeal.Read
import proofs.«427342_j8916352106736_1_alg».proof.Proof.LinPay

noncomputable section

namespace Cert.RefShare

open Cert.ReferenceIdeal Cert.ReferenceIdeal.Gen Cert.ReferenceIdeal.Read Idealize.ShloMosaic
open scoped BigOperators

/-! ## The recomputed edge lists and edge weights -/

/-- The second layer's source list (edges, then the self loops 0 … 49999) is the first layer's. -/
theorem v51_eq (x1 : (⟨S2x1600000, .i32⟩ : BufTy).Contents (Elt Ideal)) : val_main_v51 (F := Ideal) x1 = val_main_v5 (F := Ideal) x1 := rfl
/-- The second layer's target list is the first layer's. -/
theorem v52_eq (x1 : (⟨S2x1600000, .i32⟩ : BufTy).Contents (Elt Ideal)) : val_main_v52 (F := Ideal) x1 = val_main_v6 (F := Ideal) x1 := rfl
/-- The second layer's normalised edge weights are the first layer's. -/
theorem v77_eq (x1 : (⟨S2x1600000, .i32⟩ : BufTy).Contents (Elt Ideal)) (x2 : (⟨S1600000, .f32⟩ : BufTy).Contents (Elt Ideal)) :
    val_main_v77 (F := Ideal) x1 x2 = val_main_v31 (F := Ideal) x1 x2 := rfl
/-- The third layer's source list is the first layer's. -/
theorem v97_eq (x1 : (⟨S2x1600000, .i32⟩ : BufTy).Contents (Elt Ideal)) : val_main_v97 (F := Ideal) x1 = val_main_v5 (F := Ideal) x1 := rfl
/-- The third layer's target list is the first layer's. -/
theorem v98_eq (x1 : (⟨S2x1600000, .i32⟩ : BufTy).Contents (Elt Ideal)) : val_main_v98 (F := Ideal) x1 = val_main_v6 (F := Ideal) x1 := rfl
/-- The third layer's normalised edge weights are the first layer's. -/
theorem v123_eq (x1 : (⟨S2x1600000, .i32⟩ : BufTy).Contents (Elt Ideal)) (x2 : (⟨S1600000, .f32⟩ : BufTy).Contents (Elt Ideal)) :
    val_main_v123 (F := Ideal) x1 x2 = val_main_v31 (F := Ideal) x1 x2 := rfl

/-! ## The three feature transforms -/

/-- The first layer's transform is the whole-array product. -/
theorem v32_eq_linG (x : (⟨S50000x128, .f32⟩ : BufTy).Contents (Elt Ideal)) (w : (⟨S128x128, .f32⟩ : BufTy).Contents (Elt Ideal)) :
    val_main_v32 (F := Ideal) x w = Cert.KernelIdeal.LinValue.linG x w := by
  funext i
  rw [val_main_v32_apply, Cert.KernelIdeal.LinValue.linG_apply]
  rfl

/-- The second layer's transform is the same product of the first layer's output. -/
theorem v78_eq_linG (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v78 (F := Ideal) x0 x1 x2 x4 x5 x6
      = Cert.KernelIdeal.LinValue.linG (val_main_v49 (F := Ideal) x0 x1 x2 x4 x5) x6 :=
  v32_eq_linG (val_main_v49 (F := Ideal) x0 x1 x2 x4 x5) x6

/-- The third layer's transform is the same product of the second layer's output. -/
theorem v124_eq_linG (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v124 (F := Ideal) x0 x1 x2 x4 x5 x6 x7 x8
      = Cert.KernelIdeal.LinValue.linG (val_main_v95 (F := Ideal) x0 x1 x2 x4 x5 x6 x7) x8 :=
  v32_eq_linG (val_main_v95 (F := Ideal) x0 x1 x2 x4 x5 x6 x7) x8

end Cert.RefShare

end
-- ==== Proof.PoolRef.lean ====
/- The one-hot membership matrix read at an index, and the agreement, at the ideal instance, of the
   pooled sums and the counts with the reference's two accumulating scatters: both sum, per graph g, over
   the nodes whose batch word read as a signed integer is g. -/
import proofs.«427342_j8916352106736_1_alg».proof.Proof.Gen.KernelIdeal
import proofs.«427342_j8916352106736_1_alg».proof.Proof.Gen.ReferenceIdeal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

set_option synthInstance.maxSize 4096

noncomputable section

namespace Cert.PoolMath

open Idealize.ShloMosaic Idealize.ShloMosaic.ValueIdx
open Cert.KernelIdeal Cert.KernelIdeal.Gen
open scoped BigOperators

/-! ## The one-hot matrix -/

/-- The membership matrix as the program builds it: the batch words laid along the rows, the graph
    numbers 0 … 63 along the columns, compared for equality and converted to a float. -/
def onehot (batch : IVec S50000 32) : FVec Ideal S50000x64 .bf16 :=
  uitofp .bf16 (cmpi .eq
    (broadcastInDim S50000x64 ![0, 1] bcast_S50000x1_S50000x64_0_1
      (broadcastInDim S50000x1 ![0] bcast_S50000_S50000x1_0 batch))
    (broadcastInDim S50000x64 ![0, 1] bcast_S1x64_S50000x64_0_1
      (broadcastInDim S1x64 ![1] bcast_S64_S1x64_1 (iotaInDim S64 32 0))))

/-- The printed composition, whatever proofs of the shape facts it carries, is this matrix. -/
theorem onehot_of (batch : IVec S50000 32)
    (h1 : S50000.BroadcastsInDim S50000x1 (![0] : Fin 1 → Fin S50000x1.rank))
    (h2 : S50000x1.BroadcastsInDim S50000x64 (![0, 1] : Fin 2 → Fin S50000x64.rank))
    (h3 : S64.BroadcastsInDim S1x64 (![1] : Fin 1 → Fin S1x64.rank))
    (h4 : S1x64.BroadcastsInDim S50000x64 (![0, 1] : Fin 2 → Fin S50000x64.rank)) :
    (uitofp .bf16 (cmpi .eq
      (broadcastInDim S50000x64 ![0, 1] h2 (broadcastInDim S50000x1 ![0] h1 batch))
      (broadcastInDim S50000x64 ![0, 1] h4 (broadcastInDim S1x64 ![1] h3 (iotaInDim S64 32 0)))) : FVec Ideal S50000x64 .bf16)
      = onehot batch := rfl

/-- The batch column [50000, 1] reads, at (n, 0), the batch word of node n. -/
theorem batchCol_apply (batch : IVec S50000 32) (n : Fin 50000) :
    broadcastInDim S50000x1 ![0] bcast_S50000_S50000x1_0 batch (ix2 n (0 : Fin 1)) = batch (ix1 n) :=
  broadcastInDim_apply _ bcast_S50000_S50000x1_0 batch _ (ix1 n) (fun a => match a with
    | ⟨0, _⟩ => by show n.val = if (50000 : Nat) = 1 then 0 else n.val; rw [if_neg (by decide)])

/-- The batch column spread over the 64 columns reads, at (n, g), the column at (n, 0). -/
theorem batchMat_apply (col : IVec S50000x1 32) (n : Fin 50000) (g : Fin 64) :
    broadcastInDim S50000x64 ![0, 1] bcast_S50000x1_S50000x64_0_1 col (ix2 n g) = col (ix2 n (0 : Fin 1)) :=
  broadcastInDim_apply _ bcast_S50000x1_S50000x64_0_1 col _ (ix2 n (0 : Fin 1)) (fun a => match a with
    | ⟨0, _⟩ => by show n.val = if (50000 : Nat) = 1 then 0 else n.val; rw [if_neg (by decide)]
    | ⟨1, _⟩ => by show (0 : Nat) = if (1 : Nat) = 1 then 0 else g.val; rw [if_pos rfl])

/-- The graph numbers as a row [1, 64] read, at (0, g), the number g. -/
theorem iotaRow_apply (g : Fin 64) :
    broadcastInDim S1x64 ![1] bcast_S64_S1x64_1 (iotaInDim S64 32 0) (ix2 (0 : Fin 1) g) = BitVec.ofNat 32 g.val :=
  (broadcastInDim_apply _ bcast_S64_S1x64_1 (iotaInDim S64 32 0) _ (ix1 g) (fun a => match a with
    | ⟨0, _⟩ => by show g.val = if (64 : Nat) = 1 then 0 else g.val; rw [if_neg (by decide)])).trans rfl

/-- The row spread over the 50000 rows reads, at (n, g), the row at (0, g). -/
theorem iotaMat_apply (row : IVec S1x64 32) (n : Fin 50000) (g : Fin 64) :
    broadcastInDim S50000x64 ![0, 1] bcast_S1x64_S50000x64_0_1 row (ix2 n g) = row (ix2 (0 : Fin 1) g) :=
  broadcastInDim_apply _ bcast_S1x64_S50000x64_0_1 row _ (ix2 (0 : Fin 1) g) (fun a => match a with
    | ⟨0, _⟩ => by show (0 : Nat) = if (1 : Nat) = 1 then 0 else n.val; rw [if_pos rfl]
    | ⟨1, _⟩ => by show g.val = if (64 : Nat) = 1 then 0 else g.val; rw [if_neg (by decide)])

/-- The one-hot entry at (n, g) is 1 when node n's batch word is the word g, and 0 otherwise. -/
theorem onehot_apply (batch : IVec S50000 32) (n : Fin 50000) (g : Fin 64) :
    onehot batch (ix2 n g) = if batch (ix1 n) = BitVec.ofNat 32 g.val then 1 else 0 := by
  unfold onehot
  show FloatOps.uitofp (F := Ideal) .bf16 (IntOp.cmpi .eq
    (broadcastInDim S50000x64 ![0, 1] bcast_S50000x1_S50000x64_0_1
      (broadcastInDim S50000x1 ![0] bcast_S50000_S50000x1_0 batch) (ix2 n g))
    (broadcastInDim S50000x64 ![0, 1] bcast_S1x64_S50000x64_0_1
      (broadcastInDim S1x64 ![1] bcast_S64_S1x64_1 (iotaInDim S64 32 0)) (ix2 n g))) = _
  rw [batchMat_apply, batchCol_apply, iotaMat_apply, iotaRow_apply]
  by_cases h : batch (ix1 n) = BitVec.ofNat 32 g.val
  · rw [if_pos h, StableHlo.Predicate.cmpi_eq_iff.2 h]
    show (((1#1 : BitVec 1).toNat : ℝ) : EReal) = 1
    simp
  · rw [if_neg h, eq_zero_of_ne_one (fun h1 => h (StableHlo.Predicate.cmpi_eq_iff.1 h1))]
    show (((0#1 : BitVec 1).toNat : ℝ) : EReal) = 0
    simp

/-! ## The reference's scatters decoded -/

/-- The dimension numbers of the reference's scatter of feature rows into the [64, 128] sums: the row axis
    is start-indexed by the one index component, the column axis is the update's window. -/
abbrev dS : ScatterDims S64x128 S50000x1 S50000x128 := Cert.ReferenceIdeal.scatter_S64x128_S50000x1_S50000x128_1_0_0_1
/-- The dimension numbers of the reference's scatter of ones into the [64] counts: no window axis. -/
abbrev dC : ScatterDims S64 S50000x1 S50000 := Cert.ReferenceIdeal.scatter_S64_S50000x1_S50000_n_0_0_1

/-- On the row axis an update (n, c) lands at node n's index word read signed (the window adds nothing). -/
theorem dS_pos0 (idx : IVec S50000x1 32) (n : Fin 50000) (c : Fin 128) :
    dS.start (ix2 n c) idx 0 + dS.window (ix2 n c) 0 = (idx (ix2 n (0 : Fin 1))).toInt := by
  unfold ScatterDims.start ScatterDims.window
  rw [dif_pos (show (0 : Fin S64x128.rank) ∈ dS.scatterDimsToOperandDims by decide),
    dif_neg (show ¬(0 : Fin S64x128.rank) ∈ dS.sKept by decide)]
  have hsi : dS.siIdx (ix2 n c) ⟨List.idxOf (0 : Fin S64x128.rank) dS.scatterDimsToOperandDims,
      List.idxOf_lt_length_iff.2 (by decide)⟩ = ix2 n (0 : Fin 1) := by
    funext b; refine Fin.ext ?_
    match b with
    | ⟨0, _⟩ => rfl
    | ⟨1, _⟩ => rfl
  rw [hsi]
  exact add_zero _

/-- On the column axis it lands at its own column c (no start there). -/
theorem dS_pos1 (idx : IVec S50000x1 32) (n : Fin 50000) (c : Fin 128) :
    dS.start (ix2 n c) idx 1 + dS.window (ix2 n c) 1 = (c.val : ℤ) := by
  unfold ScatterDims.start ScatterDims.window
  rw [dif_neg (show ¬(1 : Fin S64x128.rank) ∈ dS.scatterDimsToOperandDims by decide),
    dif_pos (show (1 : Fin S64x128.rank) ∈ dS.sKept by decide)]
  exact zero_add _

/-- An update n of the counts lands at node n's index word read signed. -/
theorem dC_pos0 (idx : IVec S50000x1 32) (n : Fin 50000) :
    dC.start (ix1 n) idx 0 + dC.window (ix1 n) 0 = (idx (ix2 n (0 : Fin 1))).toInt := by
  unfold ScatterDims.start ScatterDims.window
  rw [dif_pos (show (0 : Fin S64.rank) ∈ dC.scatterDimsToOperandDims by decide),
    dif_neg (show ¬(0 : Fin S64.rank) ∈ dC.sKept by decide)]
  have hsi : dC.siIdx (ix1 n) ⟨List.idxOf (0 : Fin S64.rank) dC.scatterDimsToOperandDims,
      List.idxOf_lt_length_iff.2 (by decide)⟩ = ix2 n (0 : Fin 1) := by
    funext b; refine Fin.ext ?_
    match b with
    | ⟨0, _⟩ => rfl
    | ⟨1, _⟩ => rfl
  rw [hsi]
  exact add_zero _

/-- An update row (n, c) of the features lands on (g, d) exactly when node n's index word, read signed,
    is g and the column is d. -/
theorem dS_resultIdx_iff (idx : IVec S50000x1 32) (n : Fin 50000) (c : Fin 128) (g : Fin 64) (d : Fin 128) :
    dS.resultIdx? (ix2 n c) idx = some (ix2 g d) ↔ (idx (ix2 n (0 : Fin 1))).toInt = (g.val : ℤ) ∧ c = d := by
  have p0 := dS_pos0 idx n c
  have p1 := dS_pos1 idx n c
  unfold ScatterDims.resultIdx?
  constructor
  · intro h
    split at h
    · rename_i hh
      have e := Option.some.inj h
      have e0 : ((dS.start (ix2 n c) idx 0 + dS.window (ix2 n c) 0).toNat) = g.val := congrArg (fun f => (f 0).val) e
      have e1 : ((dS.start (ix2 n c) idx 1 + dS.window (ix2 n c) 1).toNat) = d.val := congrArg (fun f => (f 1).val) e
      have b0 := (hh 0).1
      rw [p0] at e0 b0
      rw [p1] at e1
      exact ⟨by omega, Fin.ext (by omega)⟩
    · cases h
  · rintro ⟨hg, rfl⟩
    have hall : ∀ a, 0 ≤ dS.start (ix2 n c) idx a + dS.window (ix2 n c) a ∧
        dS.start (ix2 n c) idx a + dS.window (ix2 n c) a < S64x128.size a := fun a => match a with
      | ⟨0, _⟩ => by
        show 0 ≤ dS.start (ix2 n c) idx 0 + dS.window (ix2 n c) 0 ∧
          dS.start (ix2 n c) idx 0 + dS.window (ix2 n c) 0 < (64 : ℕ)
        rw [p0, hg]; have := g.isLt; omega
      | ⟨1, _⟩ => by
        show 0 ≤ dS.start (ix2 n c) idx 1 + dS.window (ix2 n c) 1 ∧
          dS.start (ix2 n c) idx 1 + dS.window (ix2 n c) 1 < (128 : ℕ)
        rw [p1]; have := c.isLt; omega
    rw [dif_pos hall]
    refine congrArg some (funext fun a => Fin.ext ?_)
    match a with
    | ⟨0, _⟩ =>
      show (dS.start (ix2 n c) idx 0 + dS.window (ix2 n c) 0).toNat = g.val
      rw [p0, hg]; omega
    | ⟨1, _⟩ =>
      show (dS.start (ix2 n c) idx 1 + dS.window (ix2 n c) 1).toNat = c.val
      rw [p1]; omega

/-- An update n of the counts lands on g exactly when node n's index word, read signed, is g. -/
theorem dC_resultIdx_iff (idx : IVec S50000x1 32) (n : Fin 50000) (g : Fin 64) :
    dC.resultIdx? (ix1 n) idx = some (ix1 g) ↔ (idx (ix2 n (0 : Fin 1))).toInt = (g.val : ℤ) := by
  have p0 := dC_pos0 idx n
  unfold ScatterDims.resultIdx?
  constructor
  · intro h
    split at h
    · rename_i hh
      have e := Option.some.inj h
      have e0 : ((dC.start (ix1 n) idx 0 + dC.window (ix1 n) 0).toNat) = g.val := congrArg (fun f => (f 0).val) e
      have b0 := (hh 0).1
      rw [p0] at e0 b0
      omega
    · cases h
  · intro hg
    have hall : ∀ a, 0 ≤ dC.start (ix1 n) idx a + dC.window (ix1 n) a ∧
        dC.start (ix1 n) idx a + dC.window (ix1 n) a < S64.size a := fun a => match a with
      | ⟨0, _⟩ => by
        show 0 ≤ dC.start (ix1 n) idx 0 + dC.window (ix1 n) 0 ∧
          dC.start (ix1 n) idx 0 + dC.window (ix1 n) 0 < (64 : ℕ)
        rw [p0, hg]; have := g.isLt; omega
    rw [dif_pos hall]
    refine congrArg some (funext fun a => Fin.ext ?_)
    match a with
    | ⟨0, _⟩ =>
      show (dC.start (ix1 n) idx 0 + dC.window (ix1 n) 0).toNat = g.val
      rw [p0, hg]; omega

/-- A rank-1 index set is its coordinate range … -/
def idxEquiv1 {n0 : Nat} : (⟨1, ![n0]⟩ : Shape).Idx ≃ Fin n0 where
  toFun i := i 0
  invFun p := ix1 p
  left_inv i := (eq_ix1 i).symm
  right_inv _ := rfl
/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- The reference's pooled sums at (g, d): the operand there plus the features, column d, of the nodes whose
    index word read signed is g. -/
theorem refSums_apply (x : FVec Ideal S64x128 .f32) (idx : IVec S50000x1 32) (H : FVec Ideal S50000x128 .f32)
    (g : Fin 64) (d : Fin 128) :
    Host.scatterAdd (F := Ideal) dS x idx H (ix2 g d)
      = x (ix2 g d) + ∑ n : Fin 50000, if (idx (ix2 n (0 : Fin 1))).toInt = (g.val : ℤ) then H (ix2 n d) else 0 := by
  show Ideal.hostScatterAdd dS x idx H (ix2 g d) = _
  unfold Ideal.hostScatterAdd
  refine congrArg (x (ix2 g d) + ·) ?_
  rw [Finset.sum_filter, sum_idx2]
  refine Finset.sum_congr rfl fun n _ => ?_
  rw [Finset.sum_congr rfl fun c _ => if_congr (dS_resultIdx_iff idx n c g d) rfl rfl]
  by_cases hg : (idx (ix2 n (0 : Fin 1))).toInt = (g.val : ℤ)
  · rw [if_pos hg, Finset.sum_eq_single d (fun c _ hc => if_neg (fun h => hc h.2))
      (fun h => absurd (Finset.mem_univ d) h)]
    exact if_pos ⟨hg, rfl⟩
  · rw [if_neg hg]
    exact Finset.sum_eq_zero fun c _ => if_neg (fun h => hg h.1)

/-- The reference's counts at g: the operand there plus the updates of the nodes whose index word read
    signed is g. -/
theorem refCnt_apply (x : FVec Ideal S64 .f32) (idx : IVec S50000x1 32) (u : FVec Ideal S50000 .f32) (g : Fin 64) :
    Host.scatterAdd (F := Ideal) dC x idx u (ix1 g)
      = x (ix1 g) + ∑ n : Fin 50000, if (idx (ix2 n (0 : Fin 1))).toInt = (g.val : ℤ) then u (ix1 n) else 0 := by
  show Ideal.hostScatterAdd dC x idx u (ix1 g) = _
  unfold Ideal.hostScatterAdd
  refine congrArg (x (ix1 g) + ·) ?_
  rw [Finset.sum_filter, sum_idx1]
  exact Finset.sum_congr rfl fun n _ => if_congr (dC_resultIdx_iff idx n g) rfl rfl

/-- A 32-bit word is the word of a graph number g below 64 exactly when it reads, signed, as g. -/
theorem member_iff (w : BitVec 32) (g : Fin 64) : w = BitVec.ofNat 32 g.val ↔ w.toInt = (g.val : ℤ) := by
  have hg : (BitVec.ofNat 32 g.val).toInt = (g.val : ℤ) :=
    StableHlo.Predicate.toInt_ofNat_small g.val (by have := g.isLt; omega)
  constructor
  · rintro rfl; exact hg
  · intro h; exact BitVec.eq_of_toInt_eq (h.trans hg.symm)

/-! ## The kernel's pooling is the reference's -/

/-- THE SUMS. At (g, d) the one-hot contraction over all nodes is the reference's accumulating scatter of the
    features into zeros at the batch column. -/
theorem pool_eq (batch : IVec S50000 32) (H : FVec Ideal S50000x128 .f32)
    (hz : S_.BroadcastsInDim S64x128 (![] : Fin 0 → Fin S64x128.rank))
    (hc : S50000.BroadcastsInDim S50000x1 (![0] : Fin 1 → Fin S50000x1.rank))
    (g : Fin 64) (d : Fin 128) :
    ∑ n : Fin 50000, onehot batch (ix2 n g) * H (ix2 n d)
      = Host.scatterAdd (F := Ideal) dS
          (broadcastInDim S64x128 ![] hz (constant (F := Ideal) S_ .f32 0x00000000#32))
          (broadcastInDim S50000x1 ![0] hc batch) H (ix2 g d) := by
  rw [refSums_apply, broadcastInDim_scalar_apply, constant_apply, Ideal.ofBits_zero_f32, zero_add]
  refine Finset.sum_congr rfl fun n _ => ?_
  rw [onehot_apply, batchCol_apply]
  by_cases h : batch (ix1 n) = BitVec.ofNat 32 g.val
  · rw [if_pos h, if_pos ((member_iff _ g).1 h), one_mul]
  · rw [if_neg h, if_neg (fun h' => h ((member_iff _ g).2 h')), zero_mul]

/-- Row g of the one-hot matrix summed over the nodes: the number of nodes of graph g. -/
theorem kerCnt_apply (batch : IVec S50000 32) (g : Fin 64) :
    Host.reduceAdd (F := Ideal) (extf .f32 (onehot batch) bitsLt_bf16_f32)
        (constant (F := Ideal) S_ .f32 0x00000000#32) reducesTo_S50000x64_S64_d0 h_S_ (ix1 g)
      = ∑ n : Fin 50000, if batch (ix1 n) = BitVec.ofNat 32 g.val then (1 : EReal) else 0 := by
  rw [hostReduceAdd_apply, Ideal.hostReduceAdd_single reducesTo_S50000x64_S64_d0 (by decide : S50000x64.Reduces [0] S64),
    constant_apply, Ideal.ofBits_zero_f32, zero_add]
  show ∑ n : Fin 50000, _ = _
  refine Finset.sum_congr rfl fun n _ => ?_
  have hl : (by decide : S50000x64.Reduces [0] S64).lift (ix1 g) n = ix2 n g := by
    funext a; refine Fin.ext ?_
    match a with
    | ⟨0, _⟩ => rfl
    | ⟨1, _⟩ => rfl
  rw [hl, extf_apply, onehot_apply]

/-- THE COUNTS. The one-hot matrix summed down its rows is the reference's accumulating scatter of ones
    into zeros at the batch column. -/
theorem cnt_eq (batch : IVec S50000 32)
    (hz : S_.BroadcastsInDim S64 (![] : Fin 0 → Fin S64.rank))
    (hc : S50000.BroadcastsInDim S50000x1 (![0] : Fin 1 → Fin S50000x1.rank))
    (ho : S_.BroadcastsInDim S50000 (![] : Fin 0 → Fin S50000.rank))
    (g : Fin 64) :
    Host.reduceAdd (F := Ideal) (extf .f32 (onehot batch) bitsLt_bf16_f32)
        (constant (F := Ideal) S_ .f32 0x00000000#32) reducesTo_S50000x64_S64_d0 h_S_ (ix1 g)
      = Host.scatterAdd (F := Ideal) dC
          (broadcastInDim S64 ![] hz (constant (F := Ideal) S_ .f32 0x00000000#32))
          (broadcastInDim S50000x1 ![0] hc batch)
          (broadcastInDim S50000 ![] ho (constant (F := Ideal) S_ .f32 0x3F800000#32)) (ix1 g) := by
  rw [kerCnt_apply, refCnt_apply, broadcastInDim_scalar_apply, constant_apply, Ideal.ofBits_zero_f32, zero_add]
  refine Finset.sum_congr rfl fun n _ => ?_
  rw [batchCol_apply, broadcastInDim_scalar_apply, constant_apply, Ideal.ofBits_one_f32]
  exact if_congr (member_iff _ g) rfl rfl

end Cert.PoolMath

end
-- ==== Proof.KernelValue.lean ====
/-
  The kernel's result at the ideal instance, read stage by stage.

  At the ideal instance the three Pallas feature transforms are whole matrix products, so each boundary's
  contents at the buffers later stages read are the reference program's stages of the same arguments: the
  edge lists with self-loops and the symmetric normalisation (computed once here, recomputed per layer by
  the reference: the same term), each layer's product, gather, scaling, scatter-add, bias and rectifier,
  and at the end the graph-wise sums divided by the clamped counts.
-/
import proofs.«427342_j8916352106736_1_alg».proof.Proof.KernelIdealRun
import proofs.«427342_j8916352106736_1_alg».proof.Proof.RefValue
import proofs.«427342_j8916352106736_1_alg».proof.Proof.LinValue0
import proofs.«427342_j8916352106736_1_alg».proof.Proof.LinValue1
import proofs.«427342_j8916352106736_1_alg».proof.Proof.LinValue2
import proofs.«427342_j8916352106736_1_alg».proof.Proof.PoolValue
import proofs.«427342_j8916352106736_1_alg».proof.Proof.PoolMath
import proofs.«427342_j8916352106736_1_alg».proof.Proof.RefShare
import proofs.«427342_j8916352106736_1_alg».proof.Proof.PoolRef
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (c : Dev nD)

/-- The program's arguments on core `c`. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)

/-! ## Typed references

An outlined function's operations read and write their buffers through references that carry the value's
type; the transport is the identity, which the three lemmas below state without asking the checker to compute it. -/

/-- A value stored through a typed reference and read back through it is the value. -/
theorem ofBuf_toBuf {T : BufTy} (x : StableHlo.TRef sig T) (v : T.Contents (Elt Ideal)) : x.ofBuf (x.toBuf v) = v := by
  unfold StableHlo.TRef.ofBuf StableHlo.TRef.toBuf; simp
/-- Reading through a typed reference a buffer's contents that ARE the value `v` gives `v`. -/
theorem ofBuf_val {T : BufTy} (x : StableHlo.TRef sig T) (v : T.Contents (Elt Ideal)) (v' : x.ref.ty.Contents (Elt Ideal))
    (h : HEq v' v) : x.ofBuf v' = v := by
  obtain ⟨r, ty_eq, hd, hs⟩ := x
  subst ty_eq
  exact eq_of_heq h
/-- Storing `v` through a typed reference leaves the buffer's contents at `v`. -/
theorem toBuf_val {T : BufTy} (x : StableHlo.TRef sig T) (v : T.Contents (Elt Ideal)) (v' : x.ref.ty.Contents (Elt Ideal))
    (h : HEq v' v) : x.toBuf v = v' := by
  obtain ⟨r, ty_eq, hd, hs⟩ := x
  subst ty_eq
  exact (eq_of_heq h).symm
/-- If reading the contents `v'` through a typed reference gives `v`, the contents are `v`. -/
theorem of_ofBuf {T : BufTy} (x : StableHlo.TRef sig T) (v' : x.ref.ty.Contents (Elt Ideal)) (v : T.Contents (Elt Ideal))
    (h : x.ofBuf v' = v) : HEq v' v := by
  obtain ⟨r, ty_eq, hd, hs⟩ := x
  subst ty_eq
  exact heq_of_eq h

/-! ## The edge lists with self-loops and the normalisation -/

theorem s_v5 : W1 m c main_v5 = val_main_v5 (F := Ideal) (a1 m c) := by
  show StableHlo.after hostOps0 (W0 m c) (Proc.devRef .tc main_v5) = _
  after_results
  rfl
theorem s_v6 : W1 m c main_v6 = val_main_v6 (F := Ideal) (a1 m c) := by
  show StableHlo.after hostOps0 (W0 m c) (Proc.devRef .tc main_v6) = _
  after_results
  rfl
theorem s_v8 : W1 m c main_v8 = val_main_v8 (F := Ideal) (a2 m c) := by
  show StableHlo.after hostOps0 (W0 m c) (Proc.devRef .tc main_v8) = _
  after_results
  rfl
set_option maxHeartbeats 2000000 in
theorem s_v13 : W1 m c main_v13 = val_main_v13 (F := Ideal) (a1 m c) (a2 m c) := by
  show StableHlo.after hostOps0 (W0 m c) (Proc.devRef .tc main_v13) = _
  after_results
  rfl
set_option maxHeartbeats 2000000 in
theorem s_v14 : W1 m c main_v14 = val_main_v14 (F := Ideal) (a1 m c) (a2 m c) := by
  show StableHlo.after hostOps0 (W0 m c) (Proc.devRef .tc main_v14) = _
  after_results
  rfl
theorem s_cst2 : W1 m c main_cst_2 = val_main_cst_2 (F := Ideal) := by
  show StableHlo.after hostOps0 (W0 m c) (Proc.devRef .tc main_cst_2) = _
  after_results
  rfl
theorem s_v15 : W2 m c main_v15 = val_main_v15 (F := Ideal) (a1 m c) (a2 m c) := by
  have e13 : (StableHlo.TRef.of (T := ⟨S50000, .i1⟩) main_v13).ofBuf (W1 m c (Proc.devRef .tc main_v13)) = val_main_v13 (F := Ideal) (a1 m c) (a2 m c) :=
    ofBuf_val _ _ _ (heq_of_eq (s_v13 m c))
  have e14 : (StableHlo.TRef.of (T := ⟨S50000, .f32⟩) main_v14).ofBuf (W1 m c (Proc.devRef .tc main_v14)) = val_main_v14 (F := Ideal) (a1 m c) (a2 m c) :=
    ofBuf_val _ _ _ (heq_of_eq (s_v14 m c))
  have ec : (StableHlo.TRef.of (T := ⟨S_, .f32⟩) main_cst_2).ofBuf (W1 m c (Proc.devRef .tc main_cst_2)) = val_main_cst_2 (F := Ideal) :=
    ofBuf_val _ _ _ (heq_of_eq (s_cst2 m c))
  have key : (StableHlo.TRef.of (T := ⟨S50000, .f32⟩) main_v15).ofBuf (StableHlo.after hostOps0_1 (W1 m c) (Proc.devRef .tc main_v15))
      = val_main_v15 (F := Ideal) (a1 m c) (a2 m c) := by
    generalize W1 m c = V at e13 e14 ec ⊢
    after_results_simp
    simp only [ofBuf_toBuf]
    rw [e13, e14, ec]
    rfl
  exact eq_of_heq (of_ofBuf _ _ _ key)
theorem s_v31 : W3 m c main_v31 = val_main_v31 (F := Ideal) (a1 m c) (a2 m c) := by
  have e15 : W2 m c (Proc.devRef .tc main_v15) = val_main_v15 (F := Ideal) (a1 m c) (a2 m c) := s_v15 m c
  have e5 : W2 m c (Proc.devRef .tc main_v5) = val_main_v5 (F := Ideal) (a1 m c) := (W2_of m c main_v5 (by decide)).trans (s_v5 m c)
  have e6 : W2 m c (Proc.devRef .tc main_v6) = val_main_v6 (F := Ideal) (a1 m c) := (W2_of m c main_v6 (by decide)).trans (s_v6 m c)
  have e8 : W2 m c (Proc.devRef .tc main_v8) = val_main_v8 (F := Ideal) (a2 m c) := (W2_of m c main_v8 (by decide)).trans (s_v8 m c)
  show StableHlo.after hostOps0_2 (W2 m c) (Proc.devRef .tc main_v31) = _
  generalize W2 m c = V at e15 e5 e6 e8 ⊢
  after_results_simp
  rw [e15, e5, e6, e8]
  rfl

/-- The first stretches' results and the arguments, as the later boundaries still hold them. -/
theorem w3_v5 : W3 m c main_v5 = val_main_v5 (F := Ideal) (a1 m c) :=
  (W3_of m c main_v5 (by decide)).trans ((W2_of m c main_v5 (by decide)).trans (s_v5 m c))
theorem w3_v6 : W3 m c main_v6 = val_main_v6 (F := Ideal) (a1 m c) :=
  (W3_of m c main_v6 (by decide)).trans ((W2_of m c main_v6 (by decide)).trans (s_v6 m c))
theorem w3_arg (r : Ref sig .tc) (h0 : r ∉ hostOps0_W) (h1 : r ∉ hostOps0_1_W) (h2 : r ∉ hostOps0_2_W) :
    W3 m c r = m ((c : Thread nD τ).loc r) :=
  (W3_of m c r h2).trans ((W2_of m c r h1).trans ((W1_of m c r h0).trans rfl))
theorem w7_of_w3 (r : Ref sig .tc) (h3 : r ≠ main_v32) (h4 : r ∉ hostOps1_W) (h5 : r ∉ hostOps1_1_W) (h6 : r ≠ main_v50) :
    W7 m c r = W3 m c r :=
  (W7_of_ne m c r h6).trans ((W6_of m c r h5).trans ((W5_of m c r h4).trans (W4_of_ne m c r h3)))
theorem w10_of_w7 (r : Ref sig .tc) (h7 : r ∉ hostOps2_W) (h8 : r ∉ hostOps2_1_W) (h9 : r ≠ main_v68) :
    W10 m c r = W7 m c r :=
  (W10_of_ne m c r h9).trans ((W9_of m c r h8).trans (W8_of m c r h7))

/-! ## The first layer -/

theorem s_v32 : W4 m c main_v32 = val_main_v32 (F := Ideal) (a0 m c) (a4 m c) := by
  rw [W4_out, Cert.KernelIdeal.LinValue.lin0_final (rd (W3 m)) c]
  show Cert.KernelIdeal.LinValue.linG (W3 m c main_arg0) (W3 m c main_arg4) = _
  rw [w3_arg m c main_arg0 (by decide) (by decide) (by decide), w3_arg m c main_arg4 (by decide) (by decide) (by decide)]
  exact (Cert.RefShare.v32_eq_linG _ _).symm

theorem s_v48 : W5 m c main_v48 = val_main_v48 (F := Ideal) (a0 m c) (a1 m c) (a2 m c) (a4 m c) (a5 m c) := by
  have e32 : W4 m c (Proc.devRef .tc main_v32) = val_main_v32 (F := Ideal) (a0 m c) (a4 m c) := s_v32 m c
  have e5 : W4 m c (Proc.devRef .tc main_v5) = val_main_v5 (F := Ideal) (a1 m c) := (W4_of_ne m c main_v5 (by decide)).trans (w3_v5 m c)
  have e6 : W4 m c (Proc.devRef .tc main_v6) = val_main_v6 (F := Ideal) (a1 m c) := (W4_of_ne m c main_v6 (by decide)).trans (w3_v6 m c)
  have e31 : W4 m c (Proc.devRef .tc main_v31) = val_main_v31 (F := Ideal) (a1 m c) (a2 m c) := (W4_of_ne m c main_v31 (by decide)).trans (s_v31 m c)
  have eb : W4 m c (Proc.devRef .tc main_arg5) = (a5 m c) := (W4_of_ne m c main_arg5 (by decide)).trans (w3_arg m c main_arg5 (by decide) (by decide) (by decide))
  show StableHlo.after hostOps1 (W4 m c) (Proc.devRef .tc main_v48) = _
  generalize W4 m c = V at e32 e5 e6 e31 eb ⊢
  after_results_simp
  rw [e32, e5, e6, e31, eb]
  rfl
theorem s_v49 : W6 m c main_v49 = val_main_v49 (F := Ideal) (a0 m c) (a1 m c) (a2 m c) (a4 m c) (a5 m c) := by
  have ein : (StableHlo.TRef.of (T := ⟨S50000x128, .f32⟩) main_v48).ofBuf (W5 m c (Proc.devRef .tc main_v48)) = val_main_v48 (F := Ideal) (a0 m c) (a1 m c) (a2 m c) (a4 m c) (a5 m c) :=
    ofBuf_val _ _ _ (heq_of_eq (s_v48 m c))
  have key : (StableHlo.TRef.of (T := ⟨S50000x128, .f32⟩) main_v49).ofBuf (StableHlo.after hostOps1_1 (W5 m c) (Proc.devRef .tc main_v49)) = val_main_v49 (F := Ideal) (a0 m c) (a1 m c) (a2 m c) (a4 m c) (a5 m c) := by
    generalize W5 m c = V at ein ⊢
    after_results_simp
    simp only [ofBuf_toBuf]
    rw [ein]
    rfl
  exact eq_of_heq (of_ofBuf _ _ _ key)

/-! ## The second layer -/

theorem s_v50 : W7 m c main_v50 = val_main_v78 (F := Ideal) (a0 m c) (a1 m c) (a2 m c) (a4 m c) (a5 m c) (a6 m c) := by
  rw [W7_out, Cert.KernelIdeal.LinValue.lin1_final (rd (W6 m)) c]
  show Cert.KernelIdeal.LinValue.linG (W6 m c main_v49) (W6 m c main_arg6) = _
  rw [s_v49, W6_of m c main_arg6 (by decide), W5_of m c main_arg6 (by decide), W4_of_ne m c main_arg6 (by decide),
    w3_arg m c main_arg6 (by decide) (by decide) (by decide)]
  exact (Cert.RefShare.v78_eq_linG _ _ _ _ _ _).symm

theorem s_v66 : W8 m c main_v66 = val_main_v94 (F := Ideal) (a0 m c) (a1 m c) (a2 m c) (a4 m c) (a5 m c) (a6 m c) (a7 m c) := by
  have e50 : W7 m c (Proc.devRef .tc main_v50) = val_main_v78 (F := Ideal) (a0 m c) (a1 m c) (a2 m c) (a4 m c) (a5 m c) (a6 m c) := s_v50 m c
  have e5 : W7 m c (Proc.devRef .tc main_v5) = val_main_v51 (F := Ideal) (a1 m c) := (w7_of_w3 m c main_v5 (by decide) (by decide) (by decide) (by decide)).trans ((w3_v5 m c).trans (Cert.RefShare.v51_eq _).symm)
  have e6 : W7 m c (Proc.devRef .tc main_v6) = val_main_v52 (F := Ideal) (a1 m c) := (w7_of_w3 m c main_v6 (by decide) (by decide) (by decide) (by decide)).trans ((w3_v6 m c).trans (Cert.RefShare.v52_eq _).symm)
  have e31 : W7 m c (Proc.devRef .tc main_v31) = val_main_v77 (F := Ideal) (a1 m c) (a2 m c) := (w7_of_w3 m c main_v31 (by decide) (by decide) (by decide) (by decide)).trans ((s_v31 m c).trans (Cert.RefShare.v77_eq _ _).symm)
  have eb : W7 m c (Proc.devRef .tc main_arg7) = (a7 m c) := (w7_of_w3 m c main_arg7 (by decide) (by decide) (by decide) (by decide)).trans (w3_arg m c main_arg7 (by decide) (by decide) (by decide))
  show StableHlo.after hostOps2 (W7 m c) (Proc.devRef .tc main_v66) = _
  generalize W7 m c = V at e50 e5 e6 e31 eb ⊢
  after_results_simp
  rw [e50, e5, e6, e31, eb]
  rfl
theorem s_v67 : W9 m c main_v67 = val_main_v95 (F := Ideal) (a0 m c) (a1 m c) (a2 m c) (a4 m c) (a5 m c) (a6 m c) (a7 m c) := by
  have ein : (StableHlo.TRef.of (T := ⟨S50000x128, .f32⟩) main_v66).ofBuf (W8 m c (Proc.devRef .tc main_v66)) = val_main_v94 (F := Ideal) (a0 m c) (a1 m c) (a2 m c) (a4 m c) (a5 m c) (a6 m c) (a7 m c) :=
    ofBuf_val _ _ _ (heq_of_eq (s_v66 m c))
  have key : (StableHlo.TRef.of (T := ⟨S50000x128, .f32⟩) main_v67).ofBuf (StableHlo.after hostOps2_1 (W8 m c) (Proc.devRef .tc main_v67)) = val_main_v95 (F := Ideal) (a0 m c) (a1 m c) (a2 m c) (a4 m c) (a5 m c) (a6 m c) (a7 m c) := by
    generalize W8 m c = V at ein ⊢
    after_results_simp
    simp only [ofBuf_toBuf]
    rw [ein]
    rfl
  exact eq_of_heq (of_ofBuf _ _ _ key)

/-! ## The third layer and the one-hot matrix -/

theorem s_v68 : W10 m c main_v68 = val_main_v124 (F := Ideal) (a0 m c) (a1 m c) (a2 m c) (a4 m c) (a5 m c) (a6 m c) (a7 m c) (a8 m c) := by
  rw [W10_out, Cert.KernelIdeal.LinValue.lin2_final (rd (W9 m)) c]
  show Cert.KernelIdeal.LinValue.linG (W9 m c main_v67) (W9 m c main_arg8) = _
  rw [s_v67, W9_of m c main_arg8 (by decide), W8_of m c main_arg8 (by decide),
    w7_of_w3 m c main_arg8 (by decide) (by decide) (by decide) (by decide), w3_arg m c main_arg8 (by decide) (by decide) (by decide)]
  exact (Cert.RefShare.v124_eq_linG _ _ _ _ _ _ _ _).symm

theorem s_v84 : W11 m c main_v84 = val_main_v140 (F := Ideal) (a0 m c) (a1 m c) (a2 m c) (a4 m c) (a5 m c) (a6 m c) (a7 m c) (a8 m c) (a9 m c) := by
  have e68 : W10 m c (Proc.devRef .tc main_v68) = val_main_v124 (F := Ideal) (a0 m c) (a1 m c) (a2 m c) (a4 m c) (a5 m c) (a6 m c) (a7 m c) (a8 m c) := s_v68 m c
  have e5 : W10 m c (Proc.devRef .tc main_v5) = val_main_v97 (F := Ideal) (a1 m c) := (w10_of_w7 m c main_v5 (by decide) (by decide) (by decide)).trans ((w7_of_w3 m c main_v5 (by decide) (by decide) (by decide) (by decide)).trans ((w3_v5 m c).trans (Cert.RefShare.v97_eq _).symm))
  have e6 : W10 m c (Proc.devRef .tc main_v6) = val_main_v98 (F := Ideal) (a1 m c) := (w10_of_w7 m c main_v6 (by decide) (by decide) (by decide)).trans ((w7_of_w3 m c main_v6 (by decide) (by decide) (by decide) (by decide)).trans ((w3_v6 m c).trans (Cert.RefShare.v98_eq _).symm))
  have e31 : W10 m c (Proc.devRef .tc main_v31) = val_main_v123 (F := Ideal) (a1 m c) (a2 m c) := (w10_of_w7 m c main_v31 (by decide) (by decide) (by decide)).trans ((w7_of_w3 m c main_v31 (by decide) (by decide) (by decide) (by decide)).trans ((s_v31 m c).trans (Cert.RefShare.v123_eq _ _).symm))
  have eb : W10 m c (Proc.devRef .tc main_arg9) = (a9 m c) := (w10_of_w7 m c main_arg9 (by decide) (by decide) (by decide)).trans ((w7_of_w3 m c main_arg9 (by decide) (by decide) (by decide) (by decide)).trans (w3_arg m c main_arg9 (by decide) (by decide) (by decide)))
  show StableHlo.after hostOps3 (W10 m c) (Proc.devRef .tc main_v84) = _
  generalize W10 m c = V at e68 e5 e6 e31 eb ⊢
  after_results_simp
  rw [e68, e5, e6, e31, eb]
  rfl
theorem s_v91 : W11 m c main_v91 = Cert.PoolMath.onehot (a3 m c) := by
  have eb : W10 m c (Proc.devRef .tc main_arg3) = (a3 m c) := (w10_of_w7 m c main_arg3 (by decide) (by decide) (by decide)).trans ((w7_of_w3 m c main_arg3 (by decide) (by decide) (by decide) (by decide)).trans (w3_arg m c main_arg3 (by decide) (by decide) (by decide)))
  show StableHlo.after hostOps3 (W10 m c) (Proc.devRef .tc main_v91) = _
  generalize W10 m c = V at eb ⊢
  after_results_simp
  rw [eb]
  rfl

/-! ## The pooled sums, the counts, and the result -/

theorem s_v92 : W12 m c main_v92 = val_main_v143 (F := Ideal) (a0 m c) (a1 m c) (a2 m c) (a3 m c) (a4 m c) (a5 m c) (a6 m c) (a7 m c) (a8 m c) (a9 m c) := by
  rw [W12_out]
  funext i
  obtain ⟨g, d, rfl⟩ : ∃ (g : Fin 64) (d : Fin 128), i = ValueIdx.ix2 g d := ⟨i 0, i 1, ValueIdx.eq_ix2 i⟩
  refine (Cert.KernelIdeal.PoolValue.pool_final (rd (W11 m)) c g d).trans ?_
  have h91 : Cert.KernelIdeal.PoolValue.onehot (rd (W11 m)) c = Cert.PoolMath.onehot (a3 m c) := s_v91 m c
  have h84 : Cert.KernelIdeal.PoolValue.feats (rd (W11 m)) c = val_main_v140 (F := Ideal) (a0 m c) (a1 m c) (a2 m c) (a4 m c) (a5 m c) (a6 m c) (a7 m c) (a8 m c) (a9 m c) := s_v84 m c
  rw [h91, h84]
  unfold val_main_v143 val_main_v141 val_main_v142 val_main_cst_31
  exact Cert.PoolMath.pool_eq _ _ _ _ g d

/-- The kernel's counts, the column sums of the one-hot matrix, are the reference's scatter-added ones. -/
theorem cnt_stage : Host.reduceAdd (F := Ideal) (extf .f32 (Cert.PoolMath.onehot (a3 m c)) bitsLt_bf16_f32) (constant (F := Ideal) S_ .f32 0x00000000#32) reducesTo_S50000x64_S64_d0 h_S_
    = val_main_v147 (F := Ideal) (a3 m c) := by
  funext i
  obtain ⟨g, rfl⟩ : ∃ g : Fin 64, i = ValueIdx.ix1 g := ⟨i 0, ValueIdx.eq_ix1 i⟩
  exact Cert.PoolMath.cnt_eq _ _ _ _ g

theorem s_v99 : W13 m c main_v99 = val_main_v152 (F := Ideal) (a0 m c) (a1 m c) (a2 m c) (a3 m c) (a4 m c) (a5 m c) (a6 m c) (a7 m c) (a8 m c) (a9 m c) := by
  have e92 : W12 m c (Proc.devRef .tc main_v92) = val_main_v143 (F := Ideal) (a0 m c) (a1 m c) (a2 m c) (a3 m c) (a4 m c) (a5 m c) (a6 m c) (a7 m c) (a8 m c) (a9 m c) := s_v92 m c
  have e91 : W12 m c (Proc.devRef .tc main_v91) = Cert.PoolMath.onehot (a3 m c) := (W12_of_ne m c main_v91 (by decide)).trans (s_v91 m c)
  show StableHlo.after hostOps4 (W12 m c) (Proc.devRef .tc main_v99) = _
  generalize W12 m c = V at e92 e91 ⊢
  after_results_simp
  rw [e92, e91, cnt_stage]
  rfl

/-! ## The run's post as the claim states it -/

/-- In a final state that holds the last boundary's contents, the result buffer holds the reference's last stage of
    the launch arguments, and every argument is as launched. -/
theorem kernel_post (r : PUnit × MemSt nD τ sig (Elt Ideal))
    (h : ∀ c : Dev nD, ∀ b ∈ Pipeline.ucRefs τ sig, r.2.mem (((c : Thread nD τ)).1, b) = W13 m c b) (c : Dev nD) :
    r.2.mem ((c.tc : Thread nD τ).loc main_v99) = val_main_v152 (F := Ideal) (a0 m c) (a1 m c) (a2 m c) (a3 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h c _ (mem_uc main_v99 (by decide))).trans (s_v99 m c),
   (h c _ (mem_uc main_arg0 (by decide))).trans (W13_arg m c main_arg0 (by decide) (by decide) (by decide) (by decide) (by decide) (by decide) (by decide) (by decide) (by decide) (by decide) (by decide) (by decide) (by decide)),
   (h c _ (mem_uc main_arg1 (by decide))).trans (W13_arg m c main_arg1 (by decide) (by decide) (by decide) (by decide) (by decide) (by decide) (by decide) (by decide) (by decide) (by decide) (by decide) (by decide) (by decide)),
   (h c _ (mem_uc main_arg2 (by decide))).trans (W13_arg m c main_arg2 (by decide) (by decide) (by decide) (by decide) (by decide) (by decide) (by decide) (by decide) (by decide) (by decide) (by decide) (by decide) (by decide)),
   (h c _ (mem_uc main_arg3 (by decide))).trans (W13_arg m c main_arg3 (by decide) (by decide) (by decide) (by decide) (by decide) (by decide) (by decide) (by decide) (by decide) (by decide) (by decide) (by decide) (by decide)),
   (h c _ (mem_uc main_arg4 (by decide))).trans (W13_arg m c main_arg4 (by decide) (by decide) (by decide) (by decide) (by decide) (by decide) (by decide) (by decide) (by decide) (by decide) (by decide) (by decide) (by decide)),
   (h c _ (mem_uc main_arg5 (by decide))).trans (W13_arg m c main_arg5 (by decide) (by decide) (by decide) (by decide) (by decide) (by decide) (by decide) (by decide) (by decide) (by decide) (by decide) (by decide) (by decide)),
   (h c _ (mem_uc main_arg6 (by decide))).trans (W13_arg m c main_arg6 (by decide) (by decide) (by decide) (by decide) (by decide) (by decide) (by decide) (by decide) (by decide) (by decide) (by decide) (by decide) (by decide)),
   (h c _ (mem_uc main_arg7 (by decide))).trans (W13_arg m c main_arg7 (by decide) (by decide) (by decide) (by decide) (by decide) (by decide) (by decide) (by decide) (by decide) (by decide) (by decide) (by decide) (by decide)),
   (h c _ (mem_uc main_arg8 (by decide))).trans (W13_arg m c main_arg8 (by decide) (by decide) (by decide) (by decide) (by decide) (by decide) (by decide) (by decide) (by decide) (by decide) (by decide) (by decide) (by decide)),
   (h c _ (mem_uc main_arg9 (by decide))).trans (W13_arg m c main_arg9 (by decide) (by decide) (by decide) (by decide) (by decide) (by decide) (by decide) (by decide) (by decide) (by decide) (by decide) (by decide) (by decide))⟩

end Cert.KernelIdeal.Hand

end
-- ==== Proof.lean ====
/-
  The certificate of a three-layer graph convolution with mean pooling, written with four Pallas calls, against
  its jnp reference.

  Frames.  The kernel's program is thirteen segments, nine stretches of host operations and four kernel regions;
  each region's body is run at every grid point (the three feature transforms store the product of their two
  blocks; the pooling body zeroes a scratch accumulator at the first point, adds the product of the transposed
  one-hot block and the activation block at every point, and copies the accumulator out at the last), the
  buffers' contents are followed from boundary to boundary, and nothing ever writes an argument.  The same text
  serves the word-level program and its idealization.  The reference has no kernel: its frame is its run.

  Values, at the ideal instance.  A feature transform's output is the whole matrix product, the reference's
  dot_general.  The message passing, bias and rectifier are the same host operations on both sides; the kernel
  computes the degree normalisation once where the reference recomputes it per layer, the same term.  The pooling
  accumulator after the last point is the sum over all nodes n of onehot[n, g] · h[n, d], which is the sum of
  h[n, d] over the nodes whose label is g — the reference's scatter-add, where a label outside 0 … 63 lands
  nowhere just as its one-hot row is zero — because 0 · x = 0 and 1 · x = x for every extended real; the counts
  agree the same way.  No finiteness is used.
-/
import proofs.«427342_j8916352106736_1_alg».proof.Defs
import proofs.«427342_j8916352106736_1_alg».proof.Proof.Gen.Kernel
import proofs.«427342_j8916352106736_1_alg».proof.Proof.Gen.KernelIdeal
import proofs.«427342_j8916352106736_1_alg».proof.Proof.Gen.ReferenceIdeal
import proofs.«427342_j8916352106736_1_alg».proof.Proof.Gen.Pre_finite_inputs
import proofs.«427342_j8916352106736_1_alg».proof.Proof.KernelRun
import proofs.«427342_j8916352106736_1_alg».proof.Proof.KernelIdealRun
import proofs.«427342_j8916352106736_1_alg».proof.Proof.KernelValue
import proofs.«427342_j8916352106736_1_alg».proof.Proof.RefValue
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the reference's last stage of those
    arguments in their result buffers. -/
theorem algebraic : Cert.algebraic_KernelIdeal_ReferenceIdeal := by
  intro m ρ m' ρ' _ hagree
  refine ⟨fun c => Cert.ReferenceIdeal.Read.val_main_v152 (F := Ideal) (Cert.KernelIdeal.Hand.a0 m c) (Cert.KernelIdeal.Hand.a1 m c)
    (Cert.KernelIdeal.Hand.a2 m c) (Cert.KernelIdeal.Hand.a3 m c) (Cert.KernelIdeal.Hand.a4 m c) (Cert.KernelIdeal.Hand.a5 m c)
    (Cert.KernelIdeal.Hand.a6 m c) (Cert.KernelIdeal.Hand.a7 m c) (Cert.KernelIdeal.Hand.a8 m c) (Cert.KernelIdeal.Hand.a9 m c), ?_, ?_⟩
  · exact (θ_run Cert.KernelIdeal.defs _ _).mono (fun r h c => Cert.KernelIdeal.Hand.kernel_post m r h c)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v152_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
